-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x80 : Shape := ⟨3, ![16, 1000, 80]⟩
abbrev S16x1000x4 : Shape := ⟨3, ![16, 1000, 4]⟩
abbrev S16x300x4 : Shape := ⟨3, ![16, 300, 4]⟩
abbrev S16x4 : Shape := ⟨2, ![16, 4]⟩
abbrev S16x300 : Shape := ⟨2, ![16, 300]⟩
abbrev S_ : Shape := ⟨0, ![]⟩

class Facts : Prop where
  bcast_S_S16x1000x80 : S_.BroadcastsInDim S16x1000x80 (![] : Fin 0 → Fin S16x1000x80.rank)
  reducesTo_S16x1000x80_S_d0_1_2 : S16x1000x80.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S16x300x4 : S_.BroadcastsInDim S16x300x4 (![] : Fin 0 → Fin S16x300x4.rank)
  reducesTo_S16x300x4_S_d0_1_2 : S16x300x4.ReducesTo [0, 1, 2] S_
  bcast_S_S16x4 : S_.BroadcastsInDim S16x4 (![] : Fin 0 → Fin S16x4.rank)
  reducesTo_S16x4_S_d0_1 : S16x4.ReducesTo [0, 1] S_
  bcast_S_S16x300 : S_.BroadcastsInDim S16x300 (![] : Fin 0 → Fin S16x300.rank)
  reducesTo_S16x300_S_d0_1 : S16x300.ReducesTo [0, 1] S_

variable [Facts]

def fn_part1 {F : FTy → Type} [FloatOps F] (main_arg4 : FVec F S16x300x4 .f32) (main_arg5 : IVec S16x300 32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S16x300x4 .f32 := Host.absf main_arg4
  let main_cst_6 : FVec F S_ .f32 := constant S_ .f32 0x7F800000#32
  let main_v20 : FVec F S16x300x4 .f32 := broadcastInDim S16x300x4 ![] bcast_S_S16x300x4 main_cst_6
  let main_v21 : IVec S16x300x4 1 := cmpf .olt main_v19 main_v20
  let main_c_7 : IVec S_ 1 := constantI S_ 1 1#1
  let main_v22 : IVec S_ 1 := (fun x v => Host.reduce IntOp.andi x v reducesTo_S16x300x4_S_d0_1_2 h_S_) main_v21 main_c_7
  let main_v23 : IVec S_ 1 := andi main_v18 main_v22
  let main_c_8 : IVec S_ 32 := constantI S_ 32 0#32
  let main_v24 : IVec S16x300 32 := broadcastInDim S16x300 ![] bcast_S_S16x300 main_c_8
  let main_v25 : IVec S16x300 1 := cmpi .sge main_arg5 main_v24
  let main_c_9 : IVec S_ 1 := constantI S_ 1 1#1
  let main_v26 : IVec S_ 1 := (fun x v => Host.reduce IntOp.andi x v reducesTo_S16x300_S_d0_1 h_S_) main_v25 main_c_9
  let main_v27 : IVec S_ 1 := andi main_v23 main_v26
  let main_c_10 : IVec S_ 32 := constantI S_ 32 80#32
  let main_v28 : IVec S16x300 32 := broadcastInDim S16x300 ![] bcast_S_S16x300 main_c_10
  let main_v29 : IVec S16x300 1 := cmpi .slt main_arg5 main_v28
  let main_c_11 : IVec S_ 1 := constantI S_ 1 1#1
  let main_v30 : IVec S_ 1 := (fun x v => Host.reduce IntOp.andi x v reducesTo_S16x300_S_d0_1 h_S_) main_v29 main_c_11
  let main_v31 : IVec S_ 1 := andi main_v27 main_v30
  main_v31

def fn {F : FTy → Type} [FloatOps F] (main_arg0 : FVec F S16x1000x80 .f32) (main_arg1 : FVec F S16x1000x4 .f32) (main_arg2 : FVec F S16x300x4 .f32) (main_arg3 : FVec F S16x4 .f32) (main_arg4 : FVec F S16x300x4 .f32) (main_arg5 : IVec S16x300 32) : IVec S_ 1 :=
  let main_v0 : FVec F S16x1000x80 .f32 := Host.absf main_arg0
  let main_cst : FVec F S_ .f32 := constant S_ .f32 0x7F800000#32
  let main_v1 : FVec F S16x1000x80 .f32 := broadcastInDim S16x1000x80 ![] bcast_S_S16x1000x80 main_cst
  let main_v2 : IVec S16x1000x80 1 := cmpf .olt main_v0 main_v1
  let main_c : IVec S_ 1 := constantI S_ 1 1#1
  let main_v3 : IVec S_ 1 := (fun x v => Host.reduce IntOp.andi x v reducesTo_S16x1000x80_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S16x300x4 .f32 := Host.absf main_arg2
  let main_cst_2 : FVec F S_ .f32 := constant S_ .f32 0x7F800000#32
  let main_v10 : FVec F S16x300x4 .f32 := broadcastInDim S16x300x4 ![] bcast_S_S16x300x4 main_cst_2
  let main_v11 : IVec S16x300x4 1 := cmpf .olt main_v9 main_v10
  let main_c_3 : IVec S_ 1 := constantI S_ 1 1#1
  let main_v12 : IVec S_ 1 := (fun x v => Host.reduce IntOp.andi x v reducesTo_S16x300x4_S_d0_1_2 h_S_) main_v11 main_c_3
  let main_v13 : IVec S_ 1 := andi main_v8 main_v12
  let main_v14 : FVec F S16x4 .f32 := Host.absf main_arg3
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg4 main_arg5 main_v13 main_v16
-- ==== Kernel.lean ====
abbrev S16x1000x80 : Shape := ⟨3, ![16, 1000, 80]⟩
abbrev S16x1000x4 : Shape := ⟨3, ![16, 1000, 4]⟩
abbrev S16x300x4 : Shape := ⟨3, ![16, 300, 4]⟩
abbrev S16x4 : Shape := ⟨2, ![16, 4]⟩
abbrev S16x300 : Shape := ⟨2, ![16, 300]⟩
abbrev S16x300x1 : Shape := ⟨3, ![16, 300, 1]⟩
abbrev S16x1x4 : Shape := ⟨3, ![16, 1, 4]⟩
abbrev S16x301x1000 : Shape := ⟨3, ![16, 301, 1000]⟩
abbrev S1x1000x80 : Shape := ⟨3, ![1, 1000, 80]⟩
abbrev S1x1000x4 : Shape := ⟨3, ![1, 1000, 4]⟩
abbrev S1x300x4 : Shape := ⟨3, ![1, 300, 4]⟩
abbrev S1x300x1 : Shape := ⟨3, ![1, 300, 1]⟩
abbrev S1x1x4 : Shape := ⟨3, ![1, 1, 4]⟩
abbrev S1x301x1000 : Shape := ⟨3, ![1, 301, 1000]⟩
abbrev S1000x80 : Shape := ⟨2, ![1000, 80]⟩
abbrev S1000x4 : Shape := ⟨2, ![1000, 4]⟩
abbrev S300x4 : Shape := ⟨2, ![300, 4]⟩
abbrev S300x1 : Shape := ⟨2, ![300, 1]⟩
abbrev S1x4 : Shape := ⟨2, ![1, 4]⟩
abbrev S1000 : Shape := ⟨1, ![1000]⟩
abbrev S1000x1 : Shape := ⟨2, ![1000, 1]⟩
abbrev S300x80 : Shape := ⟨2, ![300, 80]⟩
abbrev S300x1000 : Shape := ⟨2, ![300, 1000]⟩
abbrev S1x1000 : Shape := ⟨2, ![1, 1000]⟩
abbrev S4x1000 : Shape := ⟨2, ![4, 1000]⟩
abbrev S1x300x1000 : Shape := ⟨3, ![1, 300, 1000]⟩
abbrev S1x1x1000 : Shape := ⟨3, ![1, 1, 1000]⟩

abbrev nBuf : Space → Nat
  | .hbm => 9
  | .vmem => 14
  | .smem => 0
  | _ => 0

abbrev bufTy : (tb : Table) → Fin (tcTables nBuf tb) → BufTy
  | .hbm, ⟨0, _⟩ => ⟨S16x1000x80, .f32⟩
  | .hbm, ⟨1, _⟩ => ⟨S16x1000x4, .f32⟩
  | .hbm, ⟨2, _⟩ => ⟨S16x300x4, .f32⟩
  | .hbm, ⟨3, _⟩ => ⟨S16x4, .f32⟩
  | .hbm, ⟨4, _⟩ => ⟨S16x300x4, .f32⟩
  | .hbm, ⟨5, _⟩ => ⟨S16x300, .i32⟩
  | .hbm, ⟨6, _⟩ => ⟨S16x300x1, .i32⟩
  | .hbm, ⟨7, _⟩ => ⟨S16x1x4, .f32⟩
  | .hbm, ⟨8, _⟩ => ⟨S16x301x1000, .f32⟩
  | .local _ .vmem, ⟨0, _⟩ => ⟨S1x1000x80, .f32⟩
  | .local _ .vmem, ⟨1, _⟩ => ⟨S1x1000x80, .f32⟩
  | .local _ .vmem, ⟨2, _⟩ => ⟨S1x1000x4, .f32⟩
  | .local _ .vmem, ⟨3, _⟩ => ⟨S1x1000x4, .f32⟩
  | .local _ .vmem, ⟨4, _⟩ => ⟨S1x300x4, .f32⟩
  | .local _ .vmem, ⟨5, _⟩ => ⟨S1x300x4, .f32⟩
  | .local _ .vmem, ⟨6, _⟩ => ⟨S1x300x1, .i32⟩
  | .local _ .vmem, ⟨7, _⟩ => ⟨S1x300x1, .i32⟩
  | .local _ .vmem, ⟨8, _⟩ => ⟨S1x1x4, .f32⟩
  | .local _ .vmem, ⟨9, _⟩ => ⟨S1x1x4, .f32⟩
  | .local _ .vmem, ⟨10, _⟩ => ⟨S1x300x4, .f32⟩
  | .local _ .vmem, ⟨11, _⟩ => ⟨S1x300x4, .f32⟩
  | .local _ .vmem, ⟨12, _⟩ => ⟨S1x301x1000, .f32⟩
  | .local _ .vmem, ⟨13, _⟩ => ⟨S1x301x1000, .f32⟩
  | _, _ => ⟨S16x1000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x300x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x300x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x300x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x301x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x300_S16x300x1 : S16x300.ShapeCasts S16x300x1
  shapeCasts_S16x4_S16x1x4 : S16x4.ShapeCasts S16x1x4
  inb_S1x1000x80_S1x1000x80_0_0_0 : ∀ a, (![0, 0, 0] : Fin 3 → Nat) a + S1x1000x80.size a ≤ S1x1000x80.size a
  h_S1x1000x80 : 0 < S1x1000x80.numel
  shapeCasts_S1x1000x80_S1000x80 : S1x1000x80.ShapeCasts S1000x80
  inb_S1x1000x4_S1x1000x4_0_0_0 : ∀ a, (![0, 0, 0] : Fin 3 → Nat) a + S1x1000x4.size a ≤ S1x1000x4.size a
  h_S1x1000x4 : 0 < S1x1000x4.numel
  shapeCasts_S1x1000x4_S1000x4 : S1x1000x4.ShapeCasts S1000x4
  inb_S1x300x4_S1x300x4_0_0_0 : ∀ a, (![0, 0, 0] : Fin 3 → Nat) a + S1x300x4.size a ≤ S1x300x4.size a
  h_S1x300x4 : 0 < S1x300x4.numel
  shapeCasts_S1x300x4_S300x4 : S1x300x4.ShapeCasts S300x4
  inb_S1x300x1_S1x300x1_0_0_0 : ∀ a, (![0, 0, 0] : Fin 3 → Nat) a + S1x300x1.size a ≤ S1x300x1.size a
  h_S1x300x1 : 0 < S1x300x1.numel
  shapeCasts_S1x300x1_S300x1 : S1x300x1.ShapeCasts S300x1
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  reduces_S1000x80_S1000 : S1000x80.Reduces [1] S1000
  shapeCasts_S1000_S1000x1 : S1000.ShapeCasts S1000x1
  iota_S300x80_d1_w32 : S300x80.Iotas .tc 32 [1]
  broadcasts_S300x1_S300x80 : S300x1.Broadcasts S300x80
  natLt_1_32 : 1 < 32
  bitsLt_bf16_f32 : FTy.bits .bf16 < FTy.bits .f32
  transposes_S1000x1_p1_0_S1x1000 : S1000x1.Transposes [1, 0] S1x1000
  broadcasts_S1x1000_S300x1000 : S1x1000.Broadcasts S300x1000
  broadcasts_S1x4_S1000x4 : S1x4.Broadcasts S1000x4
  transposes_S1000x4_p1_0_S4x1000 : S1000x4.Transposes [1, 0] S4x1000
  slices_S300x4_o0_0_S300x1 : S300x4.Slices ![0, 0] S300x1
  slices_S300x4_o0_1_S300x1 : S300x4.Slices ![0, 1] S300x1
  slices_S300x4_o0_2_S300x1 : S300x4.Slices ![0, 2] S300x1
  slices_S300x4_o0_3_S300x1 : S300x4.Slices ![0, 3] S300x1
  slices_S4x1000_o0_0_S1x1000 : S4x1000.Slices ![0, 0] S1x1000
  slices_S4x1000_o1_0_S1x1000 : S4x1000.Slices ![1, 0] S1x1000
  slices_S4x1000_o2_0_S1x1000 : S4x1000.Slices ![2, 0] S1x1000
  slices_S4x1000_o3_0_S1x1000 : S4x1000.Slices ![3, 0] S1x1000
  broadcasts_S300x1_S300x1000 : S300x1.Broadcasts S300x1000
  inb_S1x301x1000_S1x300x1000_0_0_0 : ∀ a, (![0, 0, 0] : Fin 3 → Nat) a + S1x300x1000.size a ≤ S1x301x1000.size a
  h_S1x300x1000 : 0 < S1x300x1000.numel
  shapeCasts_S1x300x1000_S300x1000 : S1x300x1000.ShapeCasts S300x1000
  shapeCasts_S300x1000_S1x300x1000 : S300x1000.ShapeCasts S1x300x1000
  inb_S1x301x1000_S1x1x1000_0_300_0 : ∀ a, (![0, 300, 0] : Fin 3 → Nat) a + S1x1x1000.size a ≤ S1x301x1000.size a
  h_S1x1x1000 : 0 < S1x1x1000.numel
  shapeCasts_S1x1x1000_S1x1000 : S1x1x1000.ShapeCasts S1x1000
  shapeCasts_S1x1000_S1x1x1000 : S1x1000.ShapeCasts S1x1x1000
  dot_S300x80_S1000x80_S300x1000_1_1_0_0_n_n_wf : DotDims.WF S300x80 S1000x80 S300x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x80.size a ≤ S16x1000x80.size a
  hwx0_0 : ∀ i : grid0.Coords, EltTy.bits .f32 = 32 ∨ (Rect.block (s := S16x1000x80) S1x1000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x4.size a ≤ S16x1000x4.size a
  hwx0_1 : ∀ i : grid0.Coords, EltTy.bits .f32 = 32 ∨ (Rect.block (s := S16x1000x4) S1x1000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x300x4.size a ≤ S16x300x4.size a
  hwx0_2 : ∀ i : grid0.Coords, EltTy.bits .f32 = 32 ∨ (Rect.block (s := S16x300x4) S1x300x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x300x1.size a ≤ S16x300x1.size a
  hwx0_3 : ∀ i : grid0.Coords, EltTy.bits .i32 = 32 ∨ (Rect.block (s := S16x300x1) S1x300x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S16x1x4.size a
  hwx0_4 : ∀ i : grid0.Coords, EltTy.bits .f32 = 32 ∨ (Rect.block (s := S16x1x4) S1x1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x300x4.size a ≤ S16x300x4.size a
  hwx0_5 : ∀ i : grid0.Coords, EltTy.bits .f32 = 32 ∨ (Rect.block (s := S16x300x4) S1x300x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x301x1000.size a ≤ S16x301x1000.size a
  hwx0_6 : ∀ i : grid0.Coords, EltTy.bits .f32 = 32 ∨ (Rect.block (s := S16x301x1000) S1x301x1000.size (cc0_transform_6 i) (hinb0_6 i)).WholeWords (EltTy.packing .f32)

variable [Facts₀]

def dot_S300x80_S1000x80_S300x1000_1_1_0_0_n_n : DotDims S300x80 S1000x80 S300x1000 where
  lhsContracting := [1]
  rhsContracting := [1]
  lhsNonContracting := [0]
  rhsNonContracting := [0]
  lhsBatch := []
  rhsBatch := []
  wf := dot_S300x80_S1000x80_S300x1000_1_1_0_0_n_n_wf

abbrev win0_0 : Pipeline.Window sig grid0 :=
  Pipeline.Window.ofSpec (Memref.whole main_arg0) S1x1000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x300x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x300x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x300x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x301x1000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1000x80 : Shape := ⟨3, ![16, 1000, 80]⟩
abbrev S16x1000x4 : Shape := ⟨3, ![16, 1000, 4]⟩
abbrev S16x300x4 : Shape := ⟨3, ![16, 300, 4]⟩
abbrev S16x4 : Shape := ⟨2, ![16, 4]⟩
abbrev S16x300 : Shape := ⟨2, ![16, 300]⟩
abbrev S_ : Shape := ⟨0, ![]⟩
abbrev S16x1000 : Shape := ⟨2, ![16, 1000]⟩
abbrev S16x80x1000 : Shape := ⟨3, ![16, 80, 1000]⟩
abbrev S16x300x1 : Shape := ⟨3, ![16, 300, 1]⟩
abbrev S1 : Shape := ⟨1, ![1]⟩
abbrev S1x1x1 : Shape := ⟨3, ![1, 1, 1]⟩
abbrev S16x300x1000 : Shape := ⟨3, ![16, 300, 1000]⟩
abbrev S16x1x1000 : Shape := ⟨3, ![16, 1, 1000]⟩
abbrev S16x1x4 : Shape := ⟨3, ![16, 1, 4]⟩
abbrev S16x300x1x4 : Shape := ⟨4, ![16, 300, 1, 4]⟩
abbrev S16x1x1000x4 : Shape := ⟨4, ![16, 1, 1000, 4]⟩
abbrev S16x300x1000x4 : Shape := ⟨4, ![16, 300, 1000, 4]⟩
abbrev S16x1000x1 : Shape := ⟨3, ![16, 1000, 1]⟩
abbrev S16x300x1x2 : Shape := ⟨4, ![16, 300, 1, 2]⟩
abbrev S16x1x1000x2 : Shape := ⟨4, ![16, 1, 1000, 2]⟩
abbrev S16x300x1000x2 : Shape := ⟨4, ![16, 300, 1000, 2]⟩
abbrev S16x300x1000x1 : Shape := ⟨4, ![16, 300, 1000, 1]⟩
abbrev S16x301x1000 : Shape := ⟨3, ![16, 301, 1000]⟩

abbrev nBuf : Space → Nat
  | .hbm => 193
  | .vmem => 0
  | .smem => 0
  | _ => 0

abbrev hbmTy0_0 (i : Nat) : BufTy := match i % 128 with
  | 0 => ⟨S16x1000x80, .f32⟩
  | 1 => ⟨S16x1000x4, .f32⟩
  | 2 => ⟨S16x300x4, .f32⟩
  | 3 => ⟨S16x4, .f32⟩
  | 4 => ⟨S16x300x4, .f32⟩
  | 5 => ⟨S16x300, .i32⟩
  | 6 => ⟨S16x1000x80, .f32⟩
  | 7 => ⟨S16x1000x80, .f32⟩
  | 8 => ⟨S_, .f32⟩
  | 9 => ⟨S16x1000x80, .f32⟩
  | 10 => ⟨S16x1000x80, .f32⟩
  | 11 => ⟨S_, .f32⟩
  | 12 => ⟨S16x1000x80, .f32⟩
  | 13 => ⟨S16x1000x80, .f32⟩
  | 14 => ⟨S16x1000x80, .f32⟩
  | 15 => ⟨S_, .f32⟩
  | 16 => ⟨S16x1000x80, .f32⟩
  | 17 => ⟨S16x1000x80, .f32⟩
  | 18 => ⟨S16x1000x80, .f32⟩
  | 19 => ⟨S16x1000x80, .f32⟩
  | 20 => ⟨S16x1000x80, .i1⟩
  | 21 => ⟨S16x1000x80, .f32⟩
  | 22 => ⟨S16x1000x80, .f32⟩
  | 23 => ⟨S16x1000x80, .f32⟩
  | 24 => ⟨S16x1000x80, .f32⟩
  | 25 => ⟨S16x1000x80, .f32⟩
  | 26 => ⟨S16x1000x80, .f32⟩
  | 27 => ⟨S16x1000x80, .f32⟩
  | 28 => ⟨S16x1000x80, .f32⟩
  | 29 => ⟨S_, .f32⟩
  | 30 => ⟨S16x1000x80, .f32⟩
  | 31 => ⟨S16x1000x80, .f32⟩
  | 32 => ⟨S16x1000x80, .f32⟩
  | 33 => ⟨S16x1000x80, .f32⟩
  | 34 => ⟨S16x1000x80, .i1⟩
  | 35 => ⟨S16x1000x80, .f32⟩
  | 36 => ⟨S16x1000x80, .f32⟩
  | 37 => ⟨S16x1000x80, .f32⟩
  | 38 => ⟨S16x1000x80, .f32⟩
  | 39 => ⟨S16x1000x80, .f32⟩
  | 40 => ⟨S16x1000x80, .f32⟩
  | 41 => ⟨S16x1000x80, .f32⟩
  | 42 => ⟨S16x1000x80, .f32⟩
  | 43 => ⟨S_, .f32⟩
  | 44 => ⟨S16x1000x80, .f32⟩
  | 45 => ⟨S16x1000x80, .f32⟩
  | 46 => ⟨S_, .f32⟩
  | 47 => ⟨S16x1000x80, .f32⟩
  | 48 => ⟨S16x1000x80, .f32⟩
  | 49 => ⟨S_, .f32⟩
  | 50 => ⟨S16x1000x80, .f32⟩
  | 51 => ⟨S16x1000x80, .f32⟩
  | 52 => ⟨S16x1000x80, .f32⟩
  | 53 => ⟨S_, .f32⟩
  | 54 => ⟨S16x1000x80, .f32⟩
  | 55 => ⟨S16x1000x80, .f32⟩
  | 56 => ⟨S_, .f32⟩
  | 57 => ⟨S16x1000x80, .f32⟩
  | 58 => ⟨S16x1000x80, .f32⟩
  | 59 => ⟨S16x1000x80, .f32⟩
  | 60 => ⟨S_, .f32⟩
  | 61 => ⟨S16x1000, .f32⟩
  | 62 => ⟨S16x1000x80, .f32⟩
  | 63 => ⟨S16x80x1000, .f32⟩
  | 64 => ⟨S16x300x1, .i32⟩
  | 65 => ⟨S_, .i32⟩
  | 66 => ⟨S16x300x1, .i32⟩
  | 67 => ⟨S16x300x1, .i1⟩
  | 68 => ⟨S_, .i32⟩
  | 69 => ⟨S16x300x1, .i32⟩
  | 70 => ⟨S16x300x1, .i32⟩
  | 71 => ⟨S16x300x1, .i32⟩
  | 72 => ⟨S1, .i32⟩
  | 73 => ⟨S_, .i32⟩
  | 74 => ⟨S16x300x1, .i32⟩
  | 75 => ⟨S16x300x1, .i1⟩
  | 76 => ⟨S1x1x1, .i32⟩
  | 77 => ⟨S16x300x1, .i32⟩
  | 78 => ⟨S16x300x1, .i1⟩
  | 79 => ⟨S16x300x1, .i1⟩
  | 80 => ⟨S_, .i1⟩
  | 81 => ⟨S16x300, .i1⟩
  | 82 => ⟨S16x300x1000, .f32⟩
  | 83 => ⟨S16x300x1000, .i1⟩
  | 84 => ⟨S_, .f32⟩
  | 85 => ⟨S16x300x1000, .f32⟩
  | 86 => ⟨S16x300x1000, .f32⟩
  | 87 => ⟨S16x1x1000, .f32⟩
  | 88 => ⟨S16x300x1000, .f32⟩
  | 89 => ⟨S16x300x1000, .f32⟩
  | 90 => ⟨S16x1x4, .f32⟩
  | 91 => ⟨S16x1000x4, .f32⟩
  | 92 => ⟨S16x1000x4, .f32⟩
  | 93 => ⟨S16x300x4, .f32⟩
  | 94 => ⟨S16x300x1x4, .f32⟩
  | 95 => ⟨S16x1x1000x4, .f32⟩
  | 96 => ⟨S16x300x1000x4, .f32⟩
  | 97 => ⟨S16x300x1000x4, .f32⟩
  | 98 => ⟨S16x300x1000x4, .f32⟩
  | 99 => ⟨S16x300x1000x4, .f32⟩
  | 100 => ⟨S_, .f32⟩
  | 101 => ⟨S16x300x1000, .f32⟩
  | 102 => ⟨S16x300x1x4, .f32⟩
  | 103 => ⟨S16x1x1000x4, .f32⟩
  | 104 => ⟨S16x300x1, .f32⟩
  | 105 => ⟨S16x300, .f32⟩
  | 106 => ⟨S16x300x1, .f32⟩
  | 107 => ⟨S16x300, .f32⟩
  | 108 => ⟨S16x300, .f32⟩
  | 109 => ⟨S16x300x1, .f32⟩
  | 110 => ⟨S16x300, .f32⟩
  | 111 => ⟨S16x300x1, .f32⟩
  | 112 => ⟨S16x300, .f32⟩
  | 113 => ⟨S16x300, .f32⟩
  | 114 => ⟨S16x300, .f32⟩
  | 115 => ⟨S16x1000x1, .f32⟩
  | 116 => ⟨S16x1000, .f32⟩
  | 117 => ⟨S16x1000x1, .f32⟩
  | 118 => ⟨S16x1000, .f32⟩
  | 119 => ⟨S16x1000, .f32⟩
  | 120 => ⟨S16x1000x1, .f32⟩
  | 121 => ⟨S16x1000, .f32⟩
  | 122 => ⟨S16x1000x1, .f32⟩
  | 123 => ⟨S16x1000, .f32⟩
  | 124 => ⟨S16x1000, .f32⟩
  | 125 => ⟨S16x1000, .f32⟩
  | 126 => ⟨S16x300x1x2, .f32⟩
  | 127 => ⟨S16x1x1000x2, .f32⟩
  | _ => ⟨S16x1000x80, .f32⟩

abbrev hbmTy0_1 (i : Nat) : BufTy := match i % 128 with
  | 0 => ⟨S16x300x1000x2, .f32⟩
  | 1 => ⟨S16x300x1000x2, .f32⟩
  | 2 => ⟨S16x300x1000x2, .f32⟩
  | 3 => ⟨S16x300x1x2, .f32⟩
  | 4 => ⟨S16x1x1000x2, .f32⟩
  | 5 => ⟨S16x300x1000x2, .f32⟩
  | 6 => ⟨S16x300x1000x2, .f32⟩
  | 7 => ⟨S16x300x1000x2, .f32⟩
  | 8 => ⟨S16x300x1000x2, .f32⟩
  | 9 => ⟨S_, .f32⟩
  | 10 => ⟨S_, .f32⟩
  | 11 => ⟨S16x300x1000x2, .f32⟩
  | 12 => ⟨S16x300x1000x2, .f32⟩
  | 13 => ⟨S16x300x1000x1, .f32⟩
  | 14 => ⟨S16x300x1000, .f32⟩
  | 15 => ⟨S16x300x1000x1, .f32⟩
  | 16 => ⟨S16x300x1000, .f32⟩
  | 17 => ⟨S16x300x1000, .f32⟩
  | 18 => ⟨S16x300x1, .f32⟩
  | 19 => ⟨S16x1x1000, .f32⟩
  | 20 => ⟨S16x300x1000, .f32⟩
  | 21 => ⟨S16x300x1000, .f32⟩
  | 22 => ⟨S16x300x1000, .f32⟩
  | 23 => ⟨S16x300x1000, .f32⟩
  | 24 => ⟨S16x300x1000, .f32⟩
  | 25 => ⟨S16x300x1x2, .f32⟩
  | 26 => ⟨S16x1x1000x2, .f32⟩
  | 27 => ⟨S16x300x1000x2, .f32⟩
  | 28 => ⟨S16x300x1000x2, .f32⟩
  | 29 => ⟨S16x300x1000x2, .f32⟩
  | 30 => ⟨S16x300x1x2, .f32⟩
  | 31 => ⟨S16x1x1000x2, .f32⟩
  | 32 => ⟨S16x300x1000x2, .f32⟩
  | 33 => ⟨S16x300x1000x2, .f32⟩
  | 34 => ⟨S16x300x1000x2, .f32⟩
  | 35 => ⟨S16x300x1000x2, .f32⟩
  | 36 => ⟨S_, .f32⟩
  | 37 => ⟨S_, .f32⟩
  | 38 => ⟨S16x300x1000x2, .f32⟩
  | 39 => ⟨S16x300x1000x2, .f32⟩
  | 40 => ⟨S16x300x1000x1, .f32⟩
  | 41 => ⟨S16x300x1000, .f32⟩
  | 42 => ⟨S16x300x1000x1, .f32⟩
  | 43 => ⟨S16x300x1000, .f32⟩
  | 44 => ⟨S16x300x1000, .f32⟩
  | 45 => ⟨S16x300x1000, .f32⟩
  | 46 => ⟨S16x300x1000, .f32⟩
  | 47 => ⟨S16x300x1000, .f32⟩
  | 48 => ⟨S16x300x1000, .f32⟩
  | 49 => ⟨S_, .f32⟩
  | 50 => ⟨S16x300x1000, .f32⟩
  | 51 => ⟨S16x300x1000, .f32⟩
  | 52 => ⟨S_, .f32⟩
  | 53 => ⟨S16x300x1000, .f32⟩
  | 54 => ⟨S16x300x1000, .f32⟩
  | 55 => ⟨S16x300x1000, .f32⟩
  | 56 => ⟨S_, .f32⟩
  | 57 => ⟨S16x300x1000, .f32⟩
  | 58 => ⟨S16x300x1000, .f32⟩
  | 59 => ⟨S16x300x1000, .f32⟩
  | 60 => ⟨S_, .f32⟩
  | 61 => ⟨S16x1000, .f32⟩
  | 62 => ⟨S16x1000, .f32⟩
  | 63 => ⟨S16x1x1000, .f32⟩
  | 64 => ⟨S16x301x1000, .f32⟩
  | _ => ⟨S16x1000x80, .f32⟩

abbrev hbmTy (i : Nat) : BufTy := match i / 128 with
  | 0 => hbmTy0_0 i
  | 1 => hbmTy0_1 i
  | _ => ⟨S16x1000x80, .f32⟩

abbrev bufTy : (tb : Table) → Fin (tcTables nBuf tb) → BufTy
  | .hbm, ⟨i, _⟩ => hbmTy i
  | _, _ => ⟨S16x1000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v7 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_cst_2 : Ref sig .tc := ⟨.hbm, 46, rfl⟩
abbrev main_v11 : Ref sig .tc := ⟨.hbm, 47, rfl⟩
abbrev main_v12 : Ref sig .tc := ⟨.hbm, 48, rfl⟩
abbrev main_cst_3 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_v17 : Ref sig .tc := ⟨.hbm, 55, rfl⟩
abbrev main_cst_5 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_6 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_c_2 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_c_3 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_cst : Ref sig .tc := ⟨.hbm, 84, rfl⟩
abbrev main_call2_v14 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_7 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_cst_8 : Ref sig .tc := ⟨.hbm, 137, rfl⟩
abbrev main_call3_v0 : Ref sig .tc := ⟨.hbm, 138, rfl⟩
abbrev main_call3_v1 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_9 : Ref sig .tc := ⟨.hbm, 164, rfl⟩
abbrev main_call4_v0 : Ref sig .tc := ⟨.hbm, 165, rfl⟩
abbrev main_call4_v1 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_10 : Ref sig .tc := ⟨.hbm, 177, rfl⟩
abbrev main_v109 : Ref sig .tc := ⟨.hbm, 178, rfl⟩
abbrev main_v110 : Ref sig .tc := ⟨.hbm, 179, rfl⟩
abbrev main_cst_11 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_cst_12 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_13 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩

abbrev nD : Nat := 1
abbrev τ : Topo := Topo.v7x

variable {F : FTy → Type} [FloatOps F]

class Facts₀ : Prop where
  bcast_S_S16x1000x80 : S_.BroadcastsInDim S16x1000x80 (![] : Fin 0 → Fin S16x1000x80.rank)
  reducesTo_S16x1000x80_S16x1000_d2 : S16x1000x80.ReducesTo [2] S16x1000
  h_S_ : 0 < S_.numel
  transposes_S16x1000x80_S16x80x1000_0_2_1 : S16x1000x80.Transposes [0, 2, 1] S16x80x1000
  bcast_S16x300_S16x300x1_0_1 : S16x300.BroadcastsInDim S16x300x1 (![0, 1] : Fin 2 → Fin S16x300x1.rank)
  bcast_S_S16x300x1 : S_.BroadcastsInDim S16x300x1 (![] : Fin 0 → Fin S16x300x1.rank)
  bcast_S1_S1x1x1_2 : S1.BroadcastsInDim S1x1x1 (![2] : Fin 1 → Fin S1x1x1.rank)
  bcast_S1x1x1_S16x300x1_0_1_2 : S1x1x1.BroadcastsInDim S16x300x1 (![0, 1, 2] : Fin 3 → Fin S16x300x1.rank)
  reducesTo_S16x300x1_S16x300_d2 : S16x300x1.ReducesTo [2] S16x300
  bcast_S16x300_S16x300x1000_0_1 : S16x300.BroadcastsInDim S16x300x1000 (![0, 1] : Fin 2 → Fin S16x300x1000.rank)
  bcast_S_S16x300x1000 : S_.BroadcastsInDim S16x300x1000 (![] : Fin 0 → Fin S16x300x1000.rank)
  bcast_S16x1000_S16x1x1000_0_2 : S16x1000.BroadcastsInDim S16x1x1000 (![0, 2] : Fin 2 → Fin S16x1x1000.rank)
  bcast_S16x1x1000_S16x300x1000_0_1_2 : S16x1x1000.BroadcastsInDim S16x300x1000 (![0, 1, 2] : Fin 3 → Fin S16x300x1000.rank)
  bcast_S16x4_S16x1x4_0_2 : S16x4.BroadcastsInDim S16x1x4 (![0, 2] : Fin 2 → Fin S16x1x4.rank)
  bcast_S16x1x4_S16x1000x4_0_1_2 : S16x1x4.BroadcastsInDim S16x1000x4 (![0, 1, 2] : Fin 3 → Fin S16x1000x4.rank)
  bcast_S16x300x4_S16x300x1x4_0_1_3 : S16x300x4.BroadcastsInDim S16x300x1x4 (![0, 1, 3] : Fin 3 → Fin S16x300x1x4.rank)
  bcast_S16x1000x4_S16x1x1000x4_0_2_3 : S16x1000x4.BroadcastsInDim S16x1x1000x4 (![0, 2, 3] : Fin 3 → Fin S16x1x1000x4.rank)
  bcast_S16x300x1x4_S16x300x1000x4_0_1_2_3 : S16x300x1x4.BroadcastsInDim S16x300x1000x4 (![0, 1, 2, 3] : Fin 4 → Fin S16x300x1000x4.rank)
  bcast_S16x1x1000x4_S16x300x1000x4_0_1_2_3 : S16x1x1000x4.BroadcastsInDim S16x300x1000x4 (![0, 1, 2, 3] : Fin 4 → Fin S16x300x1000x4.rank)
  reducesTo_S16x300x1000x4_S16x300x1000_d3 : S16x300x1000x4.ReducesTo [3] S16x300x1000
  slices_S16x300x4_S16x300x1_0_0_2 : S16x300x4.Slices ![0, 0, 2] S16x300x1
  shapeCasts_S16x300x1_S16x300 : S16x300x1.ShapeCasts S16x300
  slices_S16x300x4_S16x300x1_0_0_0 : S16x300x4.Slices ![0, 0, 0] S16x300x1
  slices_S16x300x4_S16x300x1_0_0_3 : S16x300x4.Slices ![0, 0, 3] S16x300x1
  slices_S16x300x4_S16x300x1_0_0_1 : S16x300x4.Slices ![0, 0, 1] S16x300x1
  slices_S16x1000x4_S16x1000x1_0_0_2 : S16x1000x4.Slices ![0, 0, 2] S16x1000x1
  shapeCasts_S16x1000x1_S16x1000 : S16x1000x1.ShapeCasts S16x1000
  slices_S16x1000x4_S16x1000x1_0_0_0 : S16x1000x4.Slices ![0, 0, 0] S16x1000x1
  slices_S16x1000x4_S16x1000x1_0_0_3 : S16x1000x4.Slices ![0, 0, 3] S16x1000x1
  slices_S16x1000x4_S16x1000x1_0_0_1 : S16x1000x4.Slices ![0, 0, 1] S16x1000x1
  slices_S16x300x1x4_S16x300x1x2_0_0_0_0 : S16x300x1x4.Slices ![0, 0, 0, 0] S16x300x1x2
  slices_S16x1x1000x4_S16x1x1000x2_0_0_0_0 : S16x1x1000x4.Slices ![0, 0, 0, 0] S16x1x1000x2
  bcast_S16x300x1x2_S16x300x1000x2_0_1_2_3 : S16x300x1x2.BroadcastsInDim S16x300x1000x2 (![0, 1, 2, 3] : Fin 4 → Fin S16x300x1000x2.rank)
  bcast_S16x1x1000x2_S16x300x1000x2_0_1_2_3 : S16x1x1000x2.BroadcastsInDim S16x300x1000x2 (![0, 1, 2, 3] : Fin 4 → Fin S16x300x1000x2.rank)
  slices_S16x300x1x4_S16x300x1x2_0_0_0_2 : S16x300x1x4.Slices ![0, 0, 0, 2] S16x300x1x2
  slices_S16x1x1000x4_S16x1x1000x2_0_0_0_2 : S16x1x1000x4.Slices ![0, 0, 0, 2] S16x1x1000x2
  bcast_S_S16x300x1000x2 : S_.BroadcastsInDim S16x300x1000x2 (![] : Fin 0 → Fin S16x300x1000x2.rank)
  slices_S16x300x1000x2_S16x300x1000x1_0_0_0_0 : S16x300x1000x2.Slices ![0, 0, 0, 0] S16x300x1000x1
  shapeCasts_S16x300x1000x1_S16x300x1000 : S16x300x1000x1.ShapeCasts S16x300x1000
  slices_S16x300x1000x2_S16x300x1000x1_0_0_0_1 : S16x300x1000x2.Slices ![0, 0, 0, 1] S16x300x1000x1
  bcast_S16x300x1_S16x300x1000_0_1_2 : S16x300x1.BroadcastsInDim S16x300x1000 (![0, 1, 2] : Fin 3 → Fin S16x300x1000.rank)
  bcast_S_S16x1000 : S_.BroadcastsInDim S16x1000 (![] : Fin 0 → Fin S16x1000.rank)
  concatenates_S16x300x1000_S16x1x1000_S16x301x1000_d1 : Shape.Concatenates [S16x300x1000, S16x1x1000] S16x301x1000 1
  gather_S16x80x1000_S16x300x1_S16x300x1000_2_1_0_0_1_2_111000_wf : GatherDims.WF S16x80x1000 S16x300x1 S16x300x1000 [2] [1] [0] [1] [0] 2 ![1, 1, 1000]

variable [Facts₀]

def gather_S16x80x1000_S16x300x1_S16x300x1000_2_1_0_0_1_2_111000 : GatherDims S16x80x1000 S16x300x1 S16x300x1000 where
  offsetDims := [2]
  collapsedSliceDims := [1]
  operandBatchingDims := [0]
  startIndicesBatchingDims := [0]
  startIndexMap := [1]
  indexVectorDim := 2
  sliceSizes := ![1, 1, 1000]
  wf := gather_S16x80x1000_S16x300x1_S16x300x1000_2_1_0_0_1_2_111000_wf

class Facts : Prop extends Facts₀ where

variable [Facts]
-- ==== Proof.PreRange.lean ====
/-
  What the precondition says of the targets' classes: every class word, read as a signed integer, is at least 0 and below 80
  — so its value as a natural number is below 80, the number of classes.
-/
import proofs.«409532_j47974784697138_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable [Facts]
open Facts

instance : Subsingleton S_.Idx := ⟨fun a b => funext fun d => d.elim0⟩

/-- A 32-bit word that is at least 0 and below 80 as a signed integer is below 80 as a natural number. -/
theorem toNat_lt_of_signed {w : BitVec 32} (h0 : (0#32 : BitVec 32).toInt ≤ w.toInt) (h1 : w.toInt < (80#32 : BitVec 32).toInt) :
    w.toNat < 80 := by
  have e0 : (0#32 : BitVec 32).toInt = 0 := by decide
  have e80 : (80#32 : BitVec 32).toInt = 80 := by decide
  rw [e0] at h0; rw [e80] at h1
  have := BitVec.toInt_eq_toNat_cond w
  have hlt := w.isLt
  split at this <;> omega

/-- Under the precondition every class word is below 80. -/
theorem classes_lt {F : FTy → Type} [FloatOps F] (a0 : FVec F S16x1000x80 .f32) (a1 : FVec F S16x1000x4 .f32) (a2 : FVec F S16x300x4 .f32)
    (a3 : FVec F S16x4 .f32) (a4 : FVec F S16x300x4 .f32) (a5 : IVec S16x300 32)
    (h : fn (F := F) a0 a1 a2 a3 a4 a5 = fun _ => 1#1) (i : S16x300.Idx) : (a5 i).toNat < 80 := by
  have e := congrFun h ix0
  unfold fn fn_part1 at e
  -- the precondition is a conjunction; its last two conjuncts are the two range tests, each a `jnp.all`
  obtain ⟨e27, e30⟩ := IntOp.andi_eq_one.1 e
  obtain ⟨-, e26⟩ := IntOp.andi_eq_one.1 e27
  have hge := Host.reduce_andi_all _ _ _ _ _ e26 i
  have hlt := Host.reduce_andi_all _ _ _ _ _ e30 i
  exact toNat_lt_of_signed (IntOp.cmpi_sge.1 hge) (IntOp.cmpi_slt.1 hlt)

end Cert.Pre_finite_inputs.Range

end
-- ==== Proof.CostSpec.lean ====
/-
  The matching-cost matrix, as ONE function of the argument arrays over the extended reals.

  For an image `b`, a query `q`, a class `c` and a target row `g`, write `x = logits[b,q,c]`, `p = σ(x)` (the logistic function) and
      neg(x) = ¾ · p² · softplus(x)          the focal loss of the class against the label 0
      pos(x) = ¼ · (1 − p)² · softplus(−x)   the focal loss of the class against the label 1
      N[b,q] = Σ_c neg(logits[b,q,c])        query `q` against "no object"
      Δ(x)   = pos(x) − neg(x)               what switching one class's label from 0 to 1 adds to `N`.
  With the normalised boxes `t[b,g,k] = gt[b,g,k] / sizeT[b,g,k]` and `o[b,q,k] = box[b,q,k] / size[b,k]` (`k` = x1, y1, x2, y2),
      cost[b,g,q]   = 2·(N[b,q] + Δ(logits[b,q,class[b,g]])) + 5·Σ_k |t_k − o_k| + 2·(−GIoU(t, o))      for g < 300
      cost[b,300,q] = 2·N[b,q]                                                                         the background row.
  Float literals stay the words the programs print: the same word on both sides is never evaluated; only 0, 1 and 2 are, where
  an identity of the extended reals needs their value.
-/
import Idealize.ShloMosaic.PureOps.Ideal
import Idealize.ShloMosaic.PureOps.Ideal.Laws
import Idealize.ShloMosaic.Lib.ValueIdx

noncomputable section

open scoped BigOperators

namespace Cert.CostSpec

open Idealize.ShloMosaic Idealize.ShloMosaic.ValueIdx

/-! ## The literals -/

/-- The word of `2.0` (the class and GIoU weights, and the focal exponent). -/
abbrev two : EReal := Ideal.ofBits .f32 0x40000000#32
/-- The word of `5.0` (the L1 weight). -/
abbrev five : EReal := Ideal.ofBits .f32 0x40A00000#32
/-- The word of `0.25` (the focal α). -/
abbrev quarter : EReal := Ideal.ofBits .f32 0x3E800000#32
/-- The word of `0.75` (1 − α). -/
abbrev threeQuarters : EReal := Ideal.ofBits .f32 0x3F400000#32

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-! ## The classification cost, one logit at a time -/

/-- softplus in the overflow-safe form both programs spell: `max(y, 0) + log(1 + e^(−|y|))`. -/
def softplus (y : EReal) : EReal := max y 0 + Ideal.log1p (Ideal.exp (-(max y (-y))))

/-- The focal loss of a logit against the label 1: `¼ · (1 − σ(x))² · softplus(−x)`. -/
def lossPos (x : EReal) : EReal :=
  quarter * ((1 - Ideal.logistic x) * (1 - Ideal.logistic x)) * softplus (-x)

/-- The focal loss of a logit against the label 0: `¾ · σ(x)² · softplus(x)`. -/
def lossNeg (x : EReal) : EReal :=
  threeQuarters * (Ideal.logistic x * Ideal.logistic x) * softplus x

/-- What a class adds when its label is 1 instead of 0. -/
def delta (x : EReal) : EReal := lossPos x - lossNeg x

/-! ## The box costs, one target box `t` against one predicted box `o` (coordinates x1, y1, x2, y2) -/

/-- `|a − b|`, as the extended reals' `max d (−d)`. -/
def absDiff (a b : EReal) : EReal := max (a - b) (-(a - b))

/-- The L1 distance of the two boxes. -/
def l1 (t o : Fin 4 → EReal) : EReal := ∑ k : Fin 4, absDiff (t k) (o k)

/-- A box's area, `(x2 − x1) · (y2 − y1)`. -/
def boxArea (t : Fin 4 → EReal) : EReal := (t 2 - t 0) * (t 3 - t 1)

/-- The area of the two boxes' intersection: its width and height clipped at zero. -/
def interArea (t o : Fin 4 → EReal) : EReal :=
  max 0 (min (t 2) (o 2) - max (t 0) (o 0)) * max 0 (min (t 3) (o 3) - max (t 1) (o 1))

/-- The area of their union. -/
def unionArea (t o : Fin 4 → EReal) : EReal := boxArea t + boxArea o - interArea t o

/-- The area of the smallest box enclosing both, its width and height clipped at zero. -/
def encArea (t o : Fin 4 → EReal) : EReal :=
  max 0 (max (t 2) (o 2) - min (t 0) (o 0)) * max 0 (max (t 3) (o 3) - min (t 1) (o 1))

/-- The generalised IoU: `inter / union − (enc − union) / enc`. -/
def giou (t o : Fin 4 → EReal) : EReal :=
  Ideal.div (interArea t o) (unionArea t o) - Ideal.div (encArea t o - unionArea t o) (encArea t o)

/-! ## One entry of the matrix from one query's logits, one class, and the two boxes -/

/-- A foreground entry: `ℓ` the query's 80 logits, `cls` the target's class, `t` / `o` the normalised boxes. -/
def fgEntry (ℓ : Fin 80 → EReal) (cls : Fin 80) (t o : Fin 4 → EReal) : EReal :=
  two * ((∑ c : Fin 80, lossNeg (ℓ c)) + delta (ℓ cls)) + five * l1 t o + two * -(giou t o)

/-- A background entry. -/
def bgEntry (ℓ : Fin 80 → EReal) : EReal := two * ∑ c : Fin 80, lossNeg (ℓ c)

/-! ## The whole array -/

/-- A class word as a class: its value when that is below 80 (which the precondition says of every target's class). -/
def clsOf (w : BitVec 32) : Fin 80 := ⟨w.toNat % 80, Nat.mod_lt _ (by decide)⟩

theorem clsOf_val {w : BitVec 32} (h : w.toNat < 80) : (clsOf w).val = w.toNat := Nat.mod_eq_of_lt h

abbrev SLogits : Shape := ⟨3, ![16, 1000, 80]⟩
abbrev SBoxes : Shape := ⟨3, ![16, 1000, 4]⟩
abbrev SGt : Shape := ⟨3, ![16, 300, 4]⟩
abbrev SSize : Shape := ⟨2, ![16, 4]⟩
abbrev SCls : Shape := ⟨2, ![16, 300]⟩
abbrev SCost : Shape := ⟨3, ![16, 301, 1000]⟩

/-- Query `q`'s logits in image `b`. -/
def logitsOf (L : FVec Ideal SLogits .f32) (b : Fin 16) (q : Fin 1000) : Fin 80 → EReal := fun c => L (ix3 b q c)

/-- Target `g`'s box over its own image size. -/
def tgtN (GB IT : FVec Ideal SGt .f32) (b : Fin 16) (g : Fin 300) : Fin 4 → EReal :=
  fun k => Ideal.div (GB (ix3 b g k)) (IT (ix3 b g k))

/-- Query `q`'s box over the image size. -/
def outN (PB : FVec Ideal SBoxes .f32) (IS : FVec Ideal SSize .f32) (b : Fin 16) (q : Fin 1000) : Fin 4 → EReal :=
  fun k => Ideal.div (PB (ix3 b q k)) (IS (ix2 b k))

/-- The foreground rows. -/
def fg (L : FVec Ideal SLogits .f32) (PB : FVec Ideal SBoxes .f32) (GB : FVec Ideal SGt .f32) (IS : FVec Ideal SSize .f32)
    (IT : FVec Ideal SGt .f32) (GC : IVec SCls 32) (b : Fin 16) (g : Fin 300) (q : Fin 1000) : EReal :=
  fgEntry (logitsOf L b q) (clsOf (GC (ix2 b g))) (tgtN GB IT b g) (outN PB IS b q)

/-- The background row. -/
def bg (L : FVec Ideal SLogits .f32) (b : Fin 16) (q : Fin 1000) : EReal := bgEntry (logitsOf L b q)

/-- The cost matrix: 300 foreground rows and the background row, per image. -/
def cost (L : FVec Ideal SLogits .f32) (PB : FVec Ideal SBoxes .f32) (GB : FVec Ideal SGt .f32) (IS : FVec Ideal SSize .f32)
    (IT : FVec Ideal SGt .f32) (GC : IVec SCls 32) : FVec Ideal SCost .f32 :=
  fun i => if h : (i 1).val < 300 then fg L PB GB IS IT GC (i 0) ⟨(i 1).val, h⟩ (i 2) else bg L (i 0) (i 2)

theorem cost_apply (L : FVec Ideal SLogits .f32) (PB : FVec Ideal SBoxes .f32) (GB : FVec Ideal SGt .f32) (IS : FVec Ideal SSize .f32)
    (IT : FVec Ideal SGt .f32) (GC : IVec SCls 32) (b : Fin 16) (r : Fin 301) (q : Fin 1000) :
    cost L PB GB IS IT GC (ix3 b r q) = if h : r.val < 300 then fg L PB GB IS IT GC b ⟨r.val, h⟩ q else bg L b q := rfl

/-! ## The identities of the extended reals that join the two programs' spellings -/

theorem sub_zero' (y : EReal) : y - 0 = y := by rw [sub_eq_add_neg, neg_zero, add_zero]

theorem zero_sub' (y : EReal) : 0 - y = -y := by rw [sub_eq_add_neg, zero_add]

/-- No extended real differs from itself: both programs' not-a-number guards are off. -/
theorem cmp_one_self (z : EReal) : Ideal.cmp .one z z = 0#1 := by simp [Ideal.cmp]

theorem cmp_une_self (z : EReal) : Ideal.cmp .une z z = 0#1 := by simp [Ideal.cmp]

/-- The logistic function's values are real numbers, at the two infinities too. -/
theorem logistic_real (x : EReal) : ∃ r : ℝ, Ideal.logistic x = (r : EReal) := by
  induction x using EReal.rec with
  | bot => exact ⟨0, by simp⟩
  | coe r => exact ⟨_, Ideal.logistic_coe r⟩
  | top => exact ⟨1, by simp⟩

/-- A real number to the power the word `2.0` denotes is its square. -/
theorem pow_two_coe (r : ℝ) : Ideal.pow (r : EReal) two = (r : EReal) * (r : EReal) := by
  rw [two, ofBits_two, Ideal.pow_coe_coe, ← EReal.coe_mul]
  congr 1
  rw [Real.rpow_eq_pow, Real.rpow_two, sq]

/-- … so the reference's `σ(x) ** 2.0` is the kernel's `σ(x) · σ(x)`, … -/
theorem pow_two_logistic (x : EReal) : Ideal.pow (Ideal.logistic x) two = Ideal.logistic x * Ideal.logistic x := by
  obtain ⟨r, hr⟩ := logistic_real x
  rw [hr, pow_two_coe]

/-- … and its `(1 − σ(x)) ** 2.0` the kernel's `(1 − σ(x)) · (1 − σ(x))`. -/
theorem pow_two_one_sub_logistic (x : EReal) :
    Ideal.pow (1 - Ideal.logistic x) two = (1 - Ideal.logistic x) * (1 - Ideal.logistic x) := by
  obtain ⟨r, hr⟩ := logistic_real x
  have h : (1 : EReal) - (r : EReal) = ((1 - r : ℝ) : EReal) := by rw [EReal.coe_sub, EReal.coe_one]
  rw [hr, h, pow_two_coe]

/-- The logistic function spelt out, as jax expands it on the host. -/
theorem logistic_eq (x : EReal) : Ideal.div 1 (1 + Ideal.exp (-x)) = Ideal.logistic x := rfl

/-- The four-term sum, in the kernel's left-to-right grouping. -/
theorem l1_eq (t o : Fin 4 → EReal) :
    l1 t o = absDiff (t 0) (o 0) + absDiff (t 1) (o 1) + absDiff (t 2) (o 2) + absDiff (t 3) (o 3) :=
  Fin.sum_univ_four _

/-- A sum against a one-hot row picks the row's one entry: `0 · x = 0` for every extended real `x`. -/
theorem sum_onehot_mul (k : Fin 80) (d : Fin 80 → EReal) :
    (∑ c : Fin 80, (if c = k then (1 : EReal) else 0) * d c) = d k := by
  rw [Finset.sum_eq_single k]
  · rw [if_pos rfl, one_mul]
  · intro c _ hc; rw [if_neg hc, zero_mul]
  · intro h; exact absurd (Finset.mem_univ k) h

end Cert.CostSpec

end
-- ==== Proof.KernelCls.lean ====
/-
  The kernel's classification values of one image, at an index, from the image's block of logits `v0` (1 × 1000 × 80) and its
  block of class words `v6` (1 × 300 × 1): the row of per-query sums of the label-0 focal losses, and the matrix of that sum plus
  the class-switch term — which the kernel reads by multiplying a one-hot row of the target's class into the class-switch terms
  (a sum in which every product but one is `0 · x = 0`).
-/
import proofs.«409532_j47974784697138_1_alg».proof.Proof.Gen.KernelIdeal.Skeleton
import proofs.«409532_j47974784697138_1_alg».proof.Proof.CostSpec
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Cert.CostSpec
open Idealize.ShloMosaic Idealize.ShloMosaic.ValueIdx

variable (v0 : Vec Ideal S1x1000x80 .f32) (v6 : Vec Ideal S1x300x1 .i32)

/-! ## The scalar spellings -/

/-- The kernel's overflow-safe softplus, with its not-a-number guard, at any extended real: the guard compares a value with
    itself, so it is off, and what is left is `max(y, 0) + log(1 + e^(−|y|))`. -/
theorem softplus_guarded (y : EReal) :
    Scalar.select (Ideal.cmp .one (y - 0) (y - 0)) (y + 0)
        (max y 0 + Ideal.log1p (Ideal.exp (0 - max (y - 0) (-(y - 0))))) = softplus y := by
  rw [cmp_one_self, select_zero, sub_zero', zero_sub']
  rfl

/-! ## The pieces the kernel makes of the logits, at query `q` and class `c` -/

/-- The block of logits with its unit axis dropped. -/
theorem logits_apply (q : Fin 1000) (c : Fin 80) : k0_pay3 v0 (ix2 q c) = v0 (ix3 0 q c) := by
  unfold k0_pay3
  exact shapeCast_1ab_ab_apply v0 _ q c

/-- The logistic of the logit. -/
theorem logistic_apply (q : Fin 1000) (c : Fin 80) : k0_pay9 v0 (ix2 q c) = Ideal.logistic (v0 (ix3 0 q c)) := by
  unfold k0_pay9
  show Ideal.logistic (k0_pay3 v0 (ix2 q c)) = _
  rw [logits_apply]

/-- The softplus of the negated logit. -/
theorem softplusNeg_apply (q : Fin 1000) (c : Fin 80) : k0_pay10 v0 (ix2 q c) = softplus (-(v0 (ix3 0 q c))) := by
  unfold k0_pay10
  show Scalar.select (Ideal.cmp .one
        ((Ideal.ofBits .f32 0x00000000#32 - k0_pay3 v0 (ix2 q c)) - Ideal.ofBits .f32 0x00000000#32)
        ((Ideal.ofBits .f32 0x00000000#32 - k0_pay3 v0 (ix2 q c)) - Ideal.ofBits .f32 0x00000000#32))
      ((Ideal.ofBits .f32 0x00000000#32 - k0_pay3 v0 (ix2 q c)) + Ideal.ofBits .f32 0x00000000#32)
      (max (Ideal.ofBits .f32 0x00000000#32 - k0_pay3 v0 (ix2 q c)) (Ideal.ofBits .f32 0x00000000#32)
        + Ideal.log1p (Ideal.exp (Ideal.ofBits .f32 0x00000000#32
            - max ((Ideal.ofBits .f32 0x00000000#32 - k0_pay3 v0 (ix2 q c)) - Ideal.ofBits .f32 0x00000000#32)
                (-((Ideal.ofBits .f32 0x00000000#32 - k0_pay3 v0 (ix2 q c)) - Ideal.ofBits .f32 0x00000000#32))))) = _
  rw [Ideal.ofBits_zero_f32, logits_apply, zero_sub']
  exact softplus_guarded _

/-- The maximum of the logit with zero. -/
theorem maxZero_apply (q : Fin 1000) (c : Fin 80) : k0_pay11 v0 (ix2 q c) = max (v0 (ix3 0 q c)) 0 := by
  unfold k0_pay11
  show max (k0_pay3 v0 (ix2 q c)) (Ideal.ofBits .f32 0x00000000#32) = _
  rw [Ideal.ofBits_zero_f32, logits_apply]

/-- The logit less zero. -/
theorem subZero_apply (q : Fin 1000) (c : Fin 80) : k0_pay12 v0 (ix2 q c) = v0 (ix3 0 q c) - 0 := by
  unfold k0_pay12
  show k0_pay3 v0 (ix2 q c) - Ideal.ofBits .f32 0x00000000#32 = _
  rw [Ideal.ofBits_zero_f32, logits_apply]

/-- The not-a-number guard bit of the logit. -/
theorem guard_apply (q : Fin 1000) (c : Fin 80) :
    k0_pay13 v0 (ix2 q c) = Ideal.cmp .one (v0 (ix3 0 q c) - 0) (v0 (ix3 0 q c) - 0) := by
  unfold k0_pay13
  show Ideal.cmp .one (k0_pay12 v0 (ix2 q c)) (k0_pay12 v0 (ix2 q c)) = _
  rw [subZero_apply]

/-- The logit plus zero. -/
theorem addZero_apply (q : Fin 1000) (c : Fin 80) : k0_pay14 v0 (ix2 q c) = v0 (ix3 0 q c) + 0 := by
  unfold k0_pay14
  show k0_pay3 v0 (ix2 q c) + Ideal.ofBits .f32 0x00000000#32 = _
  rw [Ideal.ofBits_zero_f32, logits_apply]

/-- The absolute value of the logit less zero. -/
theorem abs_apply (q : Fin 1000) (c : Fin 80) :
    k0_pay15 v0 (ix2 q c) = max (v0 (ix3 0 q c) - 0) (-(v0 (ix3 0 q c) - 0)) := by
  unfold k0_pay15
  show max (k0_pay12 v0 (ix2 q c)) (-(k0_pay12 v0 (ix2 q c))) = _
  rw [subZero_apply]

/-! ## The label-0 focal loss -/

/-- The label-0 loss over any pieces, at an index: `¾ · (p · p)` times the guarded softplus assembled from them. -/
theorem lossNegPieces_apply (v12 v30 : FVec Ideal S1000x80 .f32) (v33 : IVec S1000x80 1) (v35 v36 : FVec Ideal S1000x80 .f32)
    (i : S1000x80.Idx) :
    k0_pay16 v12 v30 v33 v35 v36 i
      = threeQuarters * (v12 i * v12 i)
          * Scalar.select (v33 i) (v35 i) (v30 i + Ideal.log1p (Ideal.exp (Ideal.ofBits .f32 0x00000000#32 - v36 i))) := rfl

/-- The label-0 focal loss of the logit. -/
theorem lossNeg_apply (q : Fin 1000) (c : Fin 80) :
    k0_pay16 (k0_pay9 v0) (k0_pay11 v0) (k0_pay13 v0) (k0_pay14 v0) (k0_pay15 v0) (ix2 q c) = lossNeg (v0 (ix3 0 q c)) := by
  rw [lossNegPieces_apply, logistic_apply, maxZero_apply, guard_apply, addZero_apply, abs_apply, Ideal.ofBits_zero_f32, softplus_guarded]
  rfl

/-! ## The row of sums -/

/-- A vector cast to a column reads, at `(i, u)`, the vector at `i`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 80 lanes of a 1000 × 80 vector, at row `q`. -/
theorem laneSum_apply (src : FVec Ideal S1000x80 .f32) (q : Fin 1000) :
    multiReduction (F := Ideal) .add [1] S1000 src 0x00000000#32 reduces_S1000x80_S1000 (.inl rfl) rfl (ix1 q)
      = ∑ c : Fin 80, src (ix2 q c) := by
  refine (Ideal.multiReduction_add_single src 0x00000000#32 reduces_S1000x80_S1000 (.inl rfl) rfl (ix1 q)).trans ?_
  refine Finset.sum_congr rfl fun c _ => congrArg src ?_
  funext a
  match a with
  | ⟨0, _⟩ => rfl
  | ⟨1, _⟩ => rfl

/-- The kernel's row of sums: entry `q` is the sum over the classes of query `q`'s label-0 focal losses. -/
theorem negSumRow_apply (q : Fin 1000) :
    k0_pay17 (F := Ideal) (k0_pay9 v0) (k0_pay11 v0) (k0_pay13 v0) (k0_pay14 v0) (k0_pay15 v0) (ix2 0 q)
      = ∑ c : Fin 80, lossNeg (v0 (ix3 0 q c)) := by
  unfold k0_pay17
  refine (transpose_ix2_apply _ _ (0 : Fin 1) q).trans ?_
  refine (shapeCast_column_apply _ _ q 0).trans ?_
  refine (laneSum_apply _ q).trans ?_
  exact Finset.sum_congr rfl fun c _ => lossNeg_apply v0 q c

/-! ## The one-hot row of a target's class -/

/-- A class word below 80 is the word of lane `c` exactly when `c` is its class. -/
theorem cmpi_class (w : BitVec 32) (hw : w.toNat < 80) (c : Fin 80) :
    IntOp.cmpi .eq w (BitVec.ofNat 32 c.val) = if c = clsOf w then 1#1 else 0#1 := by
  unfold IntOp.cmpi
  by_cases h : c = clsOf w
  · rw [if_pos h]
    have e : w = BitVec.ofNat 32 c.val := by
      apply BitVec.eq_of_toNat_eq
      rw [BitVec.toNat_ofNat, h, clsOf_val hw]
      omega
    rw [← e, beq_self_eq_true]
    rfl
  · rw [if_neg h]
    have ne : w ≠ BitVec.ofNat 32 c.val := by
      intro e
      apply h
      apply Fin.ext
      rw [clsOf_val hw, e, BitVec.toNat_ofNat]
      have := c.isLt
      omega
    rw [beq_eq_false_iff_ne.mpr ne]
    rfl

/-- The one-hot entry as a float: the bit, widened and converted, is `1` at the class and `0` elsewhere. -/
theorem onehot_scalar (w : BitVec 32) (hw : w.toNat < 80) (c : Fin 80) :
    FloatOps.sitofp (F := Ideal) .f32 ((IntOp.cmpi .eq w (BitVec.ofNat 32 c.val)).setWidth 32)
      = if c = clsOf w then (1 : EReal) else 0 := by
  rw [cmpi_class w hw c]
  by_cases h : c = clsOf w
  · rw [if_pos h, if_pos h]
    show ((((1#1 : BitVec 1).setWidth 32).toInt : ℝ) : EReal) = 1
    rw [show ((1#1 : BitVec 1).setWidth 32).toInt = 1 by decide, Int.cast_one, EReal.coe_one]
  · rw [if_neg h, if_neg h]
    show ((((0#1 : BitVec 1).setWidth 32).toInt : ℝ) : EReal) = 0
    rw [show ((0#1 : BitVec 1).setWidth 32).toInt = 0 by decide, Int.cast_zero, EReal.coe_zero]

/-- A column broadcast over many columns reads, at `(p, c)`, the column at `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block of class words with its unit axis dropped. -/
theorem classWords_apply (g : Fin 300) : k0_pay6 (F := Ideal) v6 (ix2 g 0) = v6 (ix3 0 g 0) := by
  unfold k0_pay6
  exact shapeCast_1ab_ab_apply v6 _ g 0

/-- The kernel's one-hot matrix of the targets' classes: entry `(g, c)` says whether target `g`'s class word is the word of
    lane `c`, as a float. -/
def oneHot (v7 : IVec S300x1 32) : FVec Ideal S300x80 .bf16 :=
  truncf .bf16 (sitofp .f32 (extui 32 (cmpi .eq (broadcastTo S300x80 v7 broadcasts_S300x1_S300x80)
    (iota .tc S300x80 32 [1] iota_S300x80_d1_w32)) natLt_1_32)) bitsLt_bf16_f32

theorem oneHot_apply (v7 : IVec S300x1 32) (g : Fin 300) (c : Fin 80) :
    oneHot v7 (ix2 g c)
      = FloatOps.sitofp (F := Ideal) .f32 ((IntOp.cmpi .eq (v7 (ix2 g 0)) (BitVec.ofNat 32 c.val)).setWidth 32) := by
  unfold oneHot
  show FloatOps.sitofp (F := Ideal) .f32 ((IntOp.cmpi .eq (broadcastTo S300x80 v7 broadcasts_S300x1_S300x80 (ix2 g c))
      (iota .tc S300x80 32 [1] iota_S300x80_d1_w32 (ix2 g c))).setWidth 32) = _
  rw [broadcastTo_column_apply, iota_single_apply]

/-! ## The class-switch terms -/

/-- The kernel's class-switch terms over any pieces: `¼ · (1 − p)²` times the softplus of the negated logit, less the
    label-0 loss. -/
def switchTerms (v12 v28 v30 : FVec Ideal S1000x80 .f32) (v33 : IVec S1000x80 1) (v35 v36 : FVec Ideal S1000x80 .f32) :
    FVec Ideal S1000x80 .bf16 :=
  truncf .bf16
    (subf
      (mulf
        (mulf (broadcast S1000x80 (Scalar.ofBits (F := Ideal) .f32 0x3E800000#32))
          (mulf (subf (broadcast S1000x80 (Scalar.ofBits (F := Ideal) .f32 0x3F800000#32)) v12)
            (subf (broadcast S1000x80 (Scalar.ofBits (F := Ideal) .f32 0x3F800000#32)) v12)))
        v28)
      (k0_pay16 v12 v30 v33 v35 v36))
    bitsLt_bf16_f32

/-- The class-switch term of the logit. -/
theorem switchTerms_apply (q : Fin 1000) (c : Fin 80) :
    switchTerms (k0_pay9 v0) (k0_pay10 v0) (k0_pay11 v0) (k0_pay13 v0) (k0_pay14 v0) (k0_pay15 v0) (ix2 q c)
      = delta (v0 (ix3 0 q c)) := by
  unfold switchTerms
  show Ideal.ofBits .f32 0x3E800000#32
        * ((Ideal.ofBits .f32 0x3F800000#32 - k0_pay9 v0 (ix2 q c)) * (Ideal.ofBits .f32 0x3F800000#32 - k0_pay9 v0 (ix2 q c)))
        * k0_pay10 v0 (ix2 q c)
      - k0_pay16 (k0_pay9 v0) (k0_pay11 v0) (k0_pay13 v0) (k0_pay14 v0) (k0_pay15 v0) (ix2 q c) = _
  rw [logistic_apply, softplusNeg_apply, lossNeg_apply, ofBits_one]
  rfl

/-! ## The product with the one-hot matrix, at an index -/

theorem lhs_dot_0 (i : S300x1000.Idx) (k : dot_S300x80_S1000x80_S300x1000_1_1_0_0_n_n.contr.Idx) :
    (dot_S300x80_S1000x80_S300x1000_1_1_0_0_n_n.lhsIdx i k 0).val = (i 0).val := by
  unfold DotDims.lhsIdx
  rw [dif_neg (show ¬(0 : Fin S300x80.rank) ∈ dot_S300x80_S1000x80_S300x1000_1_1_0_0_n_n.lhsBatch by decide),
    dif_pos (show (0 : Fin S300x80.rank) ∈ dot_S300x80_S1000x80_S300x1000_1_1_0_0_n_n.lhsNonContracting by decide)]
  rfl

theorem lhs_dot_1 (i : S300x1000.Idx) (k : dot_S300x80_S1000x80_S300x1000_1_1_0_0_n_n.contr.Idx) :
    (dot_S300x80_S1000x80_S300x1000_1_1_0_0_n_n.lhsIdx i k 1).val = (k ⟨0, by decide⟩).val :=
  dot_S300x80_S1000x80_S300x1000_1_1_0_0_n_n.lhsIdx_val_of_single rfl i k

theorem rhs_dot_0 (i : S300x1000.Idx) (k : dot_S300x80_S1000x80_S300x1000_1_1_0_0_n_n.contr.Idx) :
    (dot_S300x80_S1000x80_S300x1000_1_1_0_0_n_n.rhsIdx i k 0).val = (i 1).val := by
  unfold DotDims.rhsIdx
  rw [dif_neg (show ¬(0 : Fin S1000x80.rank) ∈ dot_S300x80_S1000x80_S300x1000_1_1_0_0_n_n.rhsBatch by decide),
    dif_pos (show (0 : Fin S1000x80.rank) ∈ dot_S300x80_S1000x80_S300x1000_1_1_0_0_n_n.rhsNonContracting by decide)]
  rfl

theorem rhs_dot_1 (i : S300x1000.Idx) (k : dot_S300x80_S1000x80_S300x1000_1_1_0_0_n_n.contr.Idx) :
    (dot_S300x80_S1000x80_S300x1000_1_1_0_0_n_n.rhsIdx i k 1).val = (k ⟨0, by decide⟩).val :=
  dot_S300x80_S1000x80_S300x1000_1_1_0_0_n_n.rhsIdx_val_of_single rfl i k

/-- The 300 × 80 by 1000 × 80 product into a zero accumulator, at `(g, q)`: the sum over the 80 lanes of row `g` of the
    left operand times row `q` of the right. -/
theorem product_apply (L : FVec Ideal S300x80 .bf16) (R : FVec Ideal S1000x80 .bf16) (g : Fin 300) (q : Fin 1000) :
    matmul (F := Ideal) dot_S300x80_S1000x80_S300x1000_1_1_0_0_n_n none L R (constant (F := Ideal) S300x1000 .f32 0x00000000#32)
        (ix2 g q)
      = ∑ k : Fin 80, L (ix2 g k) * R (ix2 q k) := by
  simp only [matmul]
  rw [Ideal.matmul_constant_zero_apply,
    ← Equiv.sum_comp (contrEquiv1 dot_S300x80_S1000x80_S300x1000_1_1_0_0_n_n 80 rfl rfl).symm]
  refine Finset.sum_congr rfl fun k _ => ?_
  have hk := contrEquiv1_symm_val dot_S300x80_S1000x80_S300x1000_1_1_0_0_n_n 80 rfl rfl k
  have el : dot_S300x80_S1000x80_S300x1000_1_1_0_0_n_n.lhsIdx (ix2 g q)
      ((contrEquiv1 dot_S300x80_S1000x80_S300x1000_1_1_0_0_n_n 80 rfl rfl).symm k) = ix2 g k := funext fun a => Fin.ext (by
    match a with
    | ⟨0, _⟩ => exact lhs_dot_0 _ _
    | ⟨1, _⟩ => exact (lhs_dot_1 _ _).trans hk)
  have er : dot_S300x80_S1000x80_S300x1000_1_1_0_0_n_n.rhsIdx (ix2 g q)
      ((contrEquiv1 dot_S300x80_S1000x80_S300x1000_1_1_0_0_n_n 80 rfl rfl).symm k) = ix2 q k := funext fun a => Fin.ext (by
    match a with
    | ⟨0, _⟩ => exact rhs_dot_0 _ _
    | ⟨1, _⟩ => exact (rhs_dot_1 _ _).trans hk)
  rw [el, er]

/-! ## The classification cost -/

/-- The kernel's classification matrix over any pieces: the broadcast row of sums plus the product of the one-hot matrix
    with the class-switch terms. -/
theorem clsCostPieces_eq (v7 : IVec S300x1 32) (v12 v28 v30 : FVec Ideal S1000x80 .f32) (v33 : IVec S1000x80 1)
    (v35 v36 : FVec Ideal S1000x80 .f32) :
    k0_pay18 (F := Ideal) v7 v12 v28 v30 v33 v35 v36
      = addf (broadcastTo S300x1000 (k0_pay17 v12 v30 v33 v35 v36) broadcasts_S1x1000_S300x1000)
          (matmul dot_S300x80_S1000x80_S300x1000_1_1_0_0_n_n none (oneHot v7) (switchTerms v12 v28 v30 v33 v35 v36)
            (constant (F := Ideal) S300x1000 .f32 0x00000000#32)) := rfl

/-- The kernel's classification cost of target `g` against query `q`, the targets' classes being below 80. -/
theorem clsCost_apply (h6 : ∀ g : Fin 300, (v6 (ix3 0 g 0)).toNat < 80) (g : Fin 300) (q : Fin 1000) :
    k0_pay18 (F := Ideal) (k0_pay6 v6) (k0_pay9 v0) (k0_pay10 v0) (k0_pay11 v0) (k0_pay13 v0) (k0_pay14 v0) (k0_pay15 v0) (ix2 g q)
      = (∑ c : Fin 80, lossNeg (v0 (ix3 0 q c))) + delta (v0 (ix3 0 q (clsOf (v6 (ix3 0 g 0))))) := by
  rw [clsCostPieces_eq]
  show broadcastTo S300x1000 (k0_pay17 (k0_pay9 v0) (k0_pay11 v0) (k0_pay13 v0) (k0_pay14 v0) (k0_pay15 v0))
        broadcasts_S1x1000_S300x1000 (ix2 g q)
      + matmul dot_S300x80_S1000x80_S300x1000_1_1_0_0_n_n none (oneHot (k0_pay6 v6))
          (switchTerms (k0_pay9 v0) (k0_pay10 v0) (k0_pay11 v0) (k0_pay13 v0) (k0_pay14 v0) (k0_pay15 v0))
          (constant (F := Ideal) S300x1000 .f32 0x00000000#32) (ix2 g q) = _
  rw [broadcastTo_1b_ab_apply, negSumRow_apply, product_apply]
  congr 1
  have e : ∀ c : Fin 80,
      oneHot (k0_pay6 v6) (ix2 g c)
          * switchTerms (k0_pay9 v0) (k0_pay10 v0) (k0_pay11 v0) (k0_pay13 v0) (k0_pay14 v0) (k0_pay15 v0) (ix2 q c)
        = (if c = clsOf (v6 (ix3 0 g 0)) then (1 : EReal) else 0) * delta (v0 (ix3 0 q c)) := fun c => by
    rw [oneHot_apply, switchTerms_apply, classWords_apply, onehot_scalar _ (h6 g)]
  rw [Finset.sum_congr rfl fun c _ => e c]
  exact sum_onehot_mul (clsOf (v6 (ix3 0 g 0))) fun c => delta (v0 (ix3 0 q c))

end Cert.KernelIdeal.Block

end
-- ==== Proof.KernelBox.lean ====
/-
  The kernel's box values of one image, at an index, from the image's blocks of predicted boxes `v2` (1 × 1000 × 4), target boxes
  `v4` (1 × 300 × 4), image size `v8` (1 × 1 × 4) and per-target image sizes `v10` (1 × 300 × 4): the L1 distance, the union area, the
  IoU and the enclosing area of target `g`'s normalised box against query `q`'s. The kernel transposes the normalised predicted
  boxes and slices both sides into coordinate columns and rows; at an index each is one coordinate of one box.
-/
import proofs.«409532_j47974784697138_1_alg».proof.Proof.Gen.KernelIdeal.Skeleton
import proofs.«409532_j47974784697138_1_alg».proof.Proof.CostSpec
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Cert.CostSpec
open Idealize.ShloMosaic Idealize.ShloMosaic.ValueIdx

variable (v2 : Vec Ideal S1x1000x4 .f32) (v4 : Vec Ideal S1x300x4 .f32) (v8 : Vec Ideal S1x1x4 .f32) (v10 : Vec Ideal S1x300x4 .f32)

/-- Target `g`'s box over its own image size, from the blocks. -/
abbrev tB (g : Fin 300) : Fin 4 → EReal := fun k => Ideal.div (v4 (ix3 0 g k)) (v10 (ix3 0 g k))

/-- Query `q`'s box over the image size, from the blocks. -/
abbrev oB (q : Fin 1000) : Fin 4 → EReal := fun k => Ideal.div (v2 (ix3 0 q k)) (v8 (ix3 0 0 k))

/-- The four coordinate columns of the normalised target boxes (x1, y1, x2, y2). -/
abbrev tCol0 : FVec Ideal S300x1 .f32 := k0_pay21 (F := Ideal) (k0_pay5 v4) (k0_pay8 v10)
abbrev tCol1 : FVec Ideal S300x1 .f32 := k0_pay22 (F := Ideal) (k0_pay5 v4) (k0_pay8 v10)
abbrev tCol2 : FVec Ideal S300x1 .f32 := k0_pay23 (F := Ideal) (k0_pay5 v4) (k0_pay8 v10)
abbrev tCol3 : FVec Ideal S300x1 .f32 := k0_pay24 (F := Ideal) (k0_pay5 v4) (k0_pay8 v10)

/-- The four coordinate rows of the normalised predicted boxes. -/
abbrev oRow0 : FVec Ideal S1x1000 .f32 := k0_pay25 (F := Ideal) (k0_pay4 v2) (k0_pay7 v8)
abbrev oRow1 : FVec Ideal S1x1000 .f32 := k0_pay26 (F := Ideal) (k0_pay4 v2) (k0_pay7 v8)
abbrev oRow2 : FVec Ideal S1x1000 .f32 := k0_pay27 (F := Ideal) (k0_pay4 v2) (k0_pay7 v8)
abbrev oRow3 : FVec Ideal S1x1000 .f32 := k0_pay28 (F := Ideal) (k0_pay4 v2) (k0_pay7 v8)

/-! ## A column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The blocks without their leading unit axis, and the two normalisations -/

theorem pay4_apply (q : Fin 1000) (k : Fin 4) : k0_pay4 (F := Ideal) v2 (ix2 q k) = v2 (ix3 (0 : Fin 1) q k) :=
  shapeCast_1ab_ab_apply v2 _ q k

theorem pay5_apply (g : Fin 300) (k : Fin 4) : k0_pay5 (F := Ideal) v4 (ix2 g k) = v4 (ix3 (0 : Fin 1) g k) :=
  shapeCast_1ab_ab_apply v4 _ g k

theorem pay7_apply (k : Fin 4) : k0_pay7 (F := Ideal) v8 (ix2 (0 : Fin 1) k) = v8 (ix3 (0 : Fin 1) (0 : Fin 1) k) :=
  shapeCast_1ab_ab_apply v8 _ 0 k

theorem pay8_apply (g : Fin 300) (k : Fin 4) : k0_pay8 (F := Ideal) v10 (ix2 g k) = v10 (ix3 (0 : Fin 1) g k) :=
  shapeCast_1ab_ab_apply v10 _ g k

/-- The normalised target boxes at `(g, k)`. -/
theorem pay19_apply (v5 v11 : FVec Ideal S300x4 .f32) (g : Fin 300) (k : Fin 4) :
    k0_pay19 (F := Ideal) v5 v11 (ix2 g k) = Ideal.div (v5 (ix2 g k)) (v11 (ix2 g k)) := rfl

/-- The normalised predicted boxes, transposed, at `(k, q)`. -/
theorem pay20_apply (v3 : FVec Ideal S1000x4 .f32) (v9 : FVec Ideal S1x4 .f32) (k : Fin 4) (q : Fin 1000) :
    k0_pay20 (F := Ideal) v3 v9 (ix2 k q) = Ideal.div (v3 (ix2 q k)) (v9 (ix2 (0 : Fin 1) k)) :=
  (transpose_ix2_apply (divf v3 (broadcastTo S1000x4 v9 broadcasts_S1x4_S1000x4)) transposes_S1000x4_p1_0_S4x1000 k q).trans
    (congrArg (Ideal.div (v3 (ix2 q k))) (broadcastTo_1b_ab_apply v9 broadcasts_S1x4_S1000x4 q k))

/-! ## The coordinate columns and rows at an index -/

/-- A coordinate column of the normalised target boxes: column `k` at row `g`. -/
theorem col_apply (v5 v11 : FVec Ideal S300x4 .f32) (o : Nat) (h : S300x4.Slices ![0, o] S300x1) (g : Fin 300) (k : Fin 4)
    (hk : k.val = o) :
    extractStridedSlice S300x1 ![0, o] (k0_pay19 (F := Ideal) v5 v11) h (ix2 g (0 : Fin 1))
      = Ideal.div (v5 (ix2 g k)) (v11 (ix2 g k)) :=
  slice2_axis1_apply o _ h g 0 k (hk.trans (Nat.add_zero o).symm)

/-- A coordinate row of the normalised predicted boxes: row `k` at column `q`. -/
theorem row_apply (v3 : FVec Ideal S1000x4 .f32) (v9 : FVec Ideal S1x4 .f32) (o : Nat) (h : S4x1000.Slices ![o, 0] S1x1000)
    (q : Fin 1000) (k : Fin 4) (hk : k.val = o) :
    extractStridedSlice S1x1000 ![o, 0] (k0_pay20 (F := Ideal) v3 v9) h (ix2 (0 : Fin 1) q)
      = Ideal.div (v3 (ix2 q k)) (v9 (ix2 (0 : Fin 1) k)) :=
  (slice2_axis0_apply o _ h 0 q k (hk.trans (Nat.add_zero o).symm)).trans (pay20_apply v3 v9 k q)

theorem tCol0_apply (g : Fin 300) : tCol0 v4 v10 (ix2 g (0 : Fin 1)) = tB v4 v10 g 0 :=
  (col_apply _ _ 0 slices_S300x4_o0_0_S300x1 g 0 rfl).trans (congrArg₂ Ideal.div (pay5_apply v4 g 0) (pay8_apply v10 g 0))

theorem tCol1_apply (g : Fin 300) : tCol1 v4 v10 (ix2 g (0 : Fin 1)) = tB v4 v10 g 1 :=
  (col_apply _ _ 1 slices_S300x4_o0_1_S300x1 g 1 rfl).trans (congrArg₂ Ideal.div (pay5_apply v4 g 1) (pay8_apply v10 g 1))

theorem tCol2_apply (g : Fin 300) : tCol2 v4 v10 (ix2 g (0 : Fin 1)) = tB v4 v10 g 2 :=
  (col_apply _ _ 2 slices_S300x4_o0_2_S300x1 g 2 rfl).trans (congrArg₂ Ideal.div (pay5_apply v4 g 2) (pay8_apply v10 g 2))

theorem tCol3_apply (g : Fin 300) : tCol3 v4 v10 (ix2 g (0 : Fin 1)) = tB v4 v10 g 3 :=
  (col_apply _ _ 3 slices_S300x4_o0_3_S300x1 g 3 rfl).trans (congrArg₂ Ideal.div (pay5_apply v4 g 3) (pay8_apply v10 g 3))

theorem oRow0_apply (q : Fin 1000) : oRow0 v2 v8 (ix2 (0 : Fin 1) q) = oB v2 v8 q 0 :=
  (row_apply _ _ 0 slices_S4x1000_o0_0_S1x1000 q 0 rfl).trans (congrArg₂ Ideal.div (pay4_apply v2 q 0) (pay7_apply v8 0))

theorem oRow1_apply (q : Fin 1000) : oRow1 v2 v8 (ix2 (0 : Fin 1) q) = oB v2 v8 q 1 :=
  (row_apply _ _ 1 slices_S4x1000_o1_0_S1x1000 q 1 rfl).trans (congrArg₂ Ideal.div (pay4_apply v2 q 1) (pay7_apply v8 1))

theorem oRow2_apply (q : Fin 1000) : oRow2 v2 v8 (ix2 (0 : Fin 1) q) = oB v2 v8 q 2 :=
  (row_apply _ _ 2 slices_S4x1000_o2_0_S1x1000 q 2 rfl).trans (congrArg₂ Ideal.div (pay4_apply v2 q 2) (pay7_apply v8 2))

theorem oRow3_apply (q : Fin 1000) : oRow3 v2 v8 (ix2 (0 : Fin 1) q) = oB v2 v8 q 3 :=
  (row_apply _ _ 3 slices_S4x1000_o3_0_S1x1000 q 3 rfl).trans (congrArg₂ Ideal.div (pay4_apply v2 q 3) (pay7_apply v8 3))

/-! ## The two broadcasts to the whole matrix, and the absolute value, at an index -/

/-- A column over the queries reads its row's entry. -/
theorem bcol (c : FVec Ideal S300x1 .f32) (h : S300x1.Broadcasts S300x1000) (g : Fin 300) (q : Fin 1000) :
    broadcastTo S300x1000 c h (ix2 g q) = c (ix2 g (0 : Fin 1)) := broadcastTo_a1_ab_apply c h g q

/-- A row over the targets reads its column's entry. -/
theorem brow (r : FVec Ideal S1x1000 .f32) (h : S1x1000.Broadcasts S300x1000) (g : Fin 300) (q : Fin 1000) :
    broadcastTo S300x1000 r h (ix2 g q) = r (ix2 (0 : Fin 1) q) := broadcastTo_1b_ab_apply r h g q

/-- An absolute value at an index is the larger of the element and its negation. -/
theorem absf_apply {s : Shape} (a : FVec Ideal s .f32) (i : s.Idx) : absf a i = max (a i) (-(a i)) := rfl

/-! ## The payloads at an index, over their operands' entries -/

theorem pay29_apply (v3 : FVec Ideal S1000x4 .f32) (v5 : FVec Ideal S300x4 .f32) (v9 : FVec Ideal S1x4 .f32)
    (v11 : FVec Ideal S300x4 .f32) (g : Fin 300) (q : Fin 1000) :
    k0_pay29 (F := Ideal) v3 v5 v9 v11 (ix2 g q)
      = absDiff (k0_pay21 (F := Ideal) v5 v11 (ix2 g (0 : Fin 1))) (k0_pay25 (F := Ideal) v3 v9 (ix2 (0 : Fin 1) q))
        + absDiff (k0_pay22 (F := Ideal) v5 v11 (ix2 g (0 : Fin 1))) (k0_pay26 (F := Ideal) v3 v9 (ix2 (0 : Fin 1) q)) := by
  unfold k0_pay29 absDiff
  simp only [addf_apply, absf_apply, subf_apply, bcol, brow]

theorem pay30_apply (v3 : FVec Ideal S1000x4 .f32) (v5 : FVec Ideal S300x4 .f32) (v9 : FVec Ideal S1x4 .f32)
    (v11 : FVec Ideal S300x4 .f32) (g : Fin 300) (q : Fin 1000) :
    k0_pay30 (F := Ideal) v3 v5 v9 v11 (ix2 g q)
      = k0_pay23 (F := Ideal) v5 v11 (ix2 g (0 : Fin 1)) - k0_pay27 (F := Ideal) v3 v9 (ix2 (0 : Fin 1) q) := by
  unfold k0_pay30
  simp only [subf_apply, bcol, brow]

theorem pay31_apply (c3 : FVec Ideal S300x1 .f32) (r3 : FVec Ideal S1x1000 .f32) (v87 v90 : FVec Ideal S300x1000 .f32)
    (g : Fin 300) (q : Fin 1000) :
    k0_pay31 (F := Ideal) c3 r3 v87 v90 (ix2 g q)
      = v87 (ix2 g q) + max (v90 (ix2 g q)) (-(v90 (ix2 g q))) + absDiff (c3 (ix2 g (0 : Fin 1))) (r3 (ix2 (0 : Fin 1) q)) := by
  unfold k0_pay31 absDiff
  simp only [addf_apply, absf_apply, subf_apply, bcol, brow]

/-- The intersection's area: the overlap's width and height, each clipped at zero. -/
theorem pay32_apply (c0 c1 c2 c3 : FVec Ideal S300x1 .f32) (r0 r1 r2 r3 : FVec Ideal S1x1000 .f32) (g : Fin 300) (q : Fin 1000) :
    k0_pay32 (F := Ideal) c0 c1 c2 c3 r0 r1 r2 r3 (ix2 g q)
      = max 0 (min (c2 (ix2 g (0 : Fin 1))) (r2 (ix2 (0 : Fin 1) q)) - max (c0 (ix2 g (0 : Fin 1))) (r0 (ix2 (0 : Fin 1) q)))
        * max 0 (min (c3 (ix2 g (0 : Fin 1))) (r3 (ix2 (0 : Fin 1) q)) - max (c1 (ix2 g (0 : Fin 1))) (r1 (ix2 (0 : Fin 1) q))) := by
  have hs : ∀ b : BitVec 32, Scalar.ofBits (F := Ideal) .f32 b = Ideal.ofBits .f32 b := fun _ => rfl
  unfold k0_pay32
  simp only [mulf_apply, maximumf_apply, minimumf_apply, subf_apply, broadcast_apply, bcol, brow, hs, Ideal.ofBits_zero_f32]

/-- The union's area: the two boxes' areas less the intersection's. -/
theorem pay33_apply (c0 c1 c2 c3 : FVec Ideal S300x1 .f32) (r0 r1 r2 r3 : FVec Ideal S1x1000 .f32) (g : Fin 300) (q : Fin 1000) :
    k0_pay33 (F := Ideal) c0 c1 c2 c3 r0 r1 r2 r3 (ix2 g q)
      = (c2 (ix2 g (0 : Fin 1)) - c0 (ix2 g (0 : Fin 1))) * (c3 (ix2 g (0 : Fin 1)) - c1 (ix2 g (0 : Fin 1)))
        + (r2 (ix2 (0 : Fin 1) q) - r0 (ix2 (0 : Fin 1) q)) * (r3 (ix2 (0 : Fin 1) q) - r1 (ix2 (0 : Fin 1) q))
        - k0_pay32 (F := Ideal) c0 c1 c2 c3 r0 r1 r2 r3 (ix2 g q) := by
  unfold k0_pay33
  simp only [subf_apply, addf_apply, mulf_apply, bcol, brow]

/-- The IoU: the intersection's area over the union's. -/
theorem pay34_apply (c0 c1 c2 c3 : FVec Ideal S300x1 .f32) (r0 r1 r2 r3 : FVec Ideal S1x1000 .f32) (g : Fin 300) (q : Fin 1000) :
    k0_pay34 (F := Ideal) c0 c1 c2 c3 r0 r1 r2 r3 (ix2 g q)
      = Ideal.div (k0_pay32 (F := Ideal) c0 c1 c2 c3 r0 r1 r2 r3 (ix2 g q)) (k0_pay33 (F := Ideal) c0 c1 c2 c3 r0 r1 r2 r3 (ix2 g q)) := rfl

/-- The enclosing box's area: its width and height, each clipped at zero. -/
theorem pay35_apply (c0 c1 c2 c3 : FVec Ideal S300x1 .f32) (r0 r1 r2 r3 : FVec Ideal S1x1000 .f32) (g : Fin 300) (q : Fin 1000) :
    k0_pay35 (F := Ideal) c0 c1 c2 c3 r0 r1 r2 r3 (ix2 g q)
      = max 0 (max (c2 (ix2 g (0 : Fin 1))) (r2 (ix2 (0 : Fin 1) q)) - min (c0 (ix2 g (0 : Fin 1))) (r0 (ix2 (0 : Fin 1) q)))
        * max 0 (max (c3 (ix2 g (0 : Fin 1))) (r3 (ix2 (0 : Fin 1) q)) - min (c1 (ix2 g (0 : Fin 1))) (r1 (ix2 (0 : Fin 1) q))) := by
  have hs : ∀ b : BitVec 32, Scalar.ofBits (F := Ideal) .f32 b = Ideal.ofBits .f32 b := fun _ => rfl
  unfold k0_pay35
  simp only [mulf_apply, maximumf_apply, minimumf_apply, subf_apply, broadcast_apply, bcol, brow, hs, Ideal.ofBits_zero_f32]

/-- The intersection's area of target `g`'s box and query `q`'s, from the blocks. -/
theorem inter_apply (g : Fin 300) (q : Fin 1000) :
    k0_pay32 (F := Ideal) (tCol0 v4 v10) (tCol1 v4 v10) (tCol2 v4 v10) (tCol3 v4 v10) (oRow0 v2 v8) (oRow1 v2 v8) (oRow2 v2 v8) (oRow3 v2 v8) (ix2 g q)
      = interArea (tB v4 v10 g) (oB v2 v8 q) := by
  refine (pay32_apply _ _ _ _ _ _ _ _ g q).trans ?_
  rw [tCol0_apply, tCol1_apply, tCol2_apply, tCol3_apply, oRow0_apply, oRow1_apply, oRow2_apply, oRow3_apply]
  rfl

/-- The kernel's L1 cost. -/
theorem l1_apply (g : Fin 300) (q : Fin 1000) :
    k0_pay31 (F := Ideal) (tCol3 v4 v10) (oRow3 v2 v8)
        (k0_pay29 (F := Ideal) (k0_pay4 v2) (k0_pay5 v4) (k0_pay7 v8) (k0_pay8 v10))
        (k0_pay30 (F := Ideal) (k0_pay4 v2) (k0_pay5 v4) (k0_pay7 v8) (k0_pay8 v10)) (ix2 g q)
      = l1 (tB v4 v10 g) (oB v2 v8 q) := by
  refine (pay31_apply _ _ _ _ g q).trans ?_
  rw [pay29_apply, pay30_apply, l1_eq]
  simp only [tCol0_apply, tCol1_apply, tCol2_apply, tCol3_apply, oRow0_apply, oRow1_apply, oRow2_apply, oRow3_apply]
  rfl

/-- The kernel's union area. -/
theorem union_apply (g : Fin 300) (q : Fin 1000) :
    k0_pay33 (F := Ideal) (tCol0 v4 v10) (tCol1 v4 v10) (tCol2 v4 v10) (tCol3 v4 v10) (oRow0 v2 v8) (oRow1 v2 v8) (oRow2 v2 v8) (oRow3 v2 v8) (ix2 g q)
      = unionArea (tB v4 v10 g) (oB v2 v8 q) := by
  refine (pay33_apply _ _ _ _ _ _ _ _ g q).trans ?_
  rw [inter_apply, tCol0_apply, tCol1_apply, tCol2_apply, tCol3_apply, oRow0_apply, oRow1_apply, oRow2_apply, oRow3_apply]
  rfl

/-- The kernel's IoU. -/
theorem iou_apply (g : Fin 300) (q : Fin 1000) :
    k0_pay34 (F := Ideal) (tCol0 v4 v10) (tCol1 v4 v10) (tCol2 v4 v10) (tCol3 v4 v10) (oRow0 v2 v8) (oRow1 v2 v8) (oRow2 v2 v8) (oRow3 v2 v8) (ix2 g q)
      = Ideal.div (interArea (tB v4 v10 g) (oB v2 v8 q)) (unionArea (tB v4 v10 g) (oB v2 v8 q)) :=
  (pay34_apply _ _ _ _ _ _ _ _ g q).trans (congrArg₂ Ideal.div (inter_apply v2 v4 v8 v10 g q) (union_apply v2 v4 v8 v10 g q))

/-- The kernel's enclosing area. -/
theorem enc_apply (g : Fin 300) (q : Fin 1000) :
    k0_pay35 (F := Ideal) (tCol0 v4 v10) (tCol1 v4 v10) (tCol2 v4 v10) (tCol3 v4 v10) (oRow0 v2 v8) (oRow1 v2 v8) (oRow2 v2 v8) (oRow3 v2 v8) (ix2 g q)
      = encArea (tB v4 v10 g) (oB v2 v8 q) := by
  refine (pay35_apply _ _ _ _ _ _ _ _ g q).trans ?_
  rw [tCol0_apply, tCol1_apply, tCol2_apply, tCol3_apply, oRow0_apply, oRow1_apply, oRow2_apply, oRow3_apply]
  rfl

end Cert.KernelIdeal.Block

end
-- ==== Proof.KernelValue.lean ====
/-
  The kernel's result array is the cost matrix.

  One grid point handles one image `b`: it is given the image's blocks of the six operands and stores, into the image's
  301 × 1000 block of the result, the 300 foreground rows in one store and the background row in another. Each stored value is
  a pure term of the loaded blocks; at an index it is an entry of the cost matrix (the classification and box lemmas). The two
  stores cover the block, the sixteen blocks cover the array, and a block's entry at (0, r, q) is the array's at (b, r, q).
-/
import proofs.«409532_j47974784697138_1_alg».proof.Proof.Gen.KernelIdeal.Value
import proofs.«409532_j47974784697138_1_alg».proof.Proof.KernelCls
import proofs.«409532_j47974784697138_1_alg».proof.Proof.KernelBox
import Idealize.ShloMosaic.Lib.Pipeline.Value
import Idealize.ShloMosaic.Lib.StableHlo.Run
import Idealize.ShloMosaic.Lib.Tactic

set_option maxRecDepth 16384

noncomputable section

open scoped BigOperators

namespace Cert.KernelIdeal.CostValue

open Cert.KernelIdeal Cert.KernelIdeal.Gen Cert.KernelIdeal.Block Cert.CostSpec
open Idealize.ShloMosaic Idealize.ShloMosaic.TcCoe Idealize.SL.Sem Idealize.ShloMosaic.ValueIdx
open Idealize.ShloMosaic.Pipeline (Dat)

/-! ## The two stored values, at an index, from the six loaded blocks -/

section Stored

variable (x0 : Vec Ideal S1x1000x80 .f32) (x1 : Vec Ideal S1x1000x4 .f32) (x2 : Vec Ideal S1x300x4 .f32)
  (x3 : Vec Ideal S1x300x1 .i32) (x4 : Vec Ideal S1x1x4 .f32) (x5 : Vec Ideal S1x300x4 .f32)

/-- The foreground store's value: the body's weighted sum over the classification, L1, union, IoU and enclosing-area matrices. -/
def fgPay : FVec Ideal S1x300x1000 .f32 :=
  k0_pay1 (F := Ideal)
    (k0_pay18 (F := Ideal) (k0_pay6 x3) (k0_pay9 x0) (k0_pay10 x0) (k0_pay11 x0) (k0_pay13 x0) (k0_pay14 x0) (k0_pay15 x0))
    (k0_pay31 (F := Ideal) (tCol3 x2 x5) (oRow3 x1 x4)
      (k0_pay29 (F := Ideal) (k0_pay4 x1) (k0_pay5 x2) (k0_pay7 x4) (k0_pay8 x5))
      (k0_pay30 (F := Ideal) (k0_pay4 x1) (k0_pay5 x2) (k0_pay7 x4) (k0_pay8 x5)))
    (k0_pay33 (F := Ideal) (tCol0 x2 x5) (tCol1 x2 x5) (tCol2 x2 x5) (tCol3 x2 x5) (oRow0 x1 x4) (oRow1 x1 x4) (oRow2 x1 x4) (oRow3 x1 x4))
    (k0_pay34 (F := Ideal) (tCol0 x2 x5) (tCol1 x2 x5) (tCol2 x2 x5) (tCol3 x2 x5) (oRow0 x1 x4) (oRow1 x1 x4) (oRow2 x1 x4) (oRow3 x1 x4))
    (k0_pay35 (F := Ideal) (tCol0 x2 x5) (tCol1 x2 x5) (tCol2 x2 x5) (tCol3 x2 x5) (oRow0 x1 x4) (oRow1 x1 x4) (oRow2 x1 x4) (oRow3 x1 x4))

/-- The background store's value: twice the row of sums. -/
def bgPay : FVec Ideal S1x1x1000 .f32 :=
  k0_pay2 (F := Ideal) (k0_pay17 (F := Ideal) (k0_pay9 x0) (k0_pay11 x0) (k0_pay13 x0) (k0_pay14 x0) (k0_pay15 x0))

/-- The weighted sum at an index, from its five operand matrices at that index. -/
theorem pay1_apply (v66 v97 v126 v127 v146 : FVec Ideal S300x1000 .f32) (g : Fin 300) (q : Fin 1000) :
    k0_pay1 (F := Ideal) v66 v97 v126 v127 v146 (ix3 0 g q)
      = two * v66 (ix2 g q) + five * v97 (ix2 g q)
        + two * (Ideal.ofBits .f32 0x00000000#32
            - (v127 (ix2 g q) - Ideal.div (v146 (ix2 g q) - v126 (ix2 g q)) (v146 (ix2 g q)))) := by
  unfold k0_pay1
  refine (shapeCast_apply _ shapeCasts_S300x1000_S1x300x1000 (ix3 0 g q) (ix2 g q) ?_).trans rfl
  show ((⟨2, ![300, 1000]⟩ : Shape).rowMajor (ix2 g q)).val = ((⟨3, ![1, 300, 1000]⟩ : Shape).rowMajor (ix3 0 g q)).val
  rw [Shape.rowMajor_val_two, Shape.rowMajor_val_three]
  show g.val * 1000 + q.val = (0 * 300 + g.val) * 1000 + q.val
  omega

/-- Twice a row, at an index. -/
theorem pay2_apply (v64 : FVec Ideal S1x1000 .f32) (q : Fin 1000) :
    k0_pay2 (F := Ideal) v64 (ix3 0 0 q) = two * v64 (ix2 0 q) := by
  unfold k0_pay2
  refine (shapeCast_apply _ shapeCasts_S1x1000_S1x1x1000 (ix3 0 0 q) (ix2 0 q) ?_).trans rfl
  show ((⟨2, ![1, 1000]⟩ : Shape).rowMajor (ix2 0 q)).val = ((⟨3, ![1, 1, 1000]⟩ : Shape).rowMajor (ix3 0 0 q)).val
  rw [Shape.rowMajor_val_two, Shape.rowMajor_val_three]
  show 0 * 1000 + q.val = (0 * 1 + 0) * 1000 + q.val
  omega

/-- A foreground entry of the image's block is the cost matrix's entry of the image's blocks. -/
theorem fgPay_apply (h3 : ∀ g : Fin 300, (x3 (ix3 0 g 0)).toNat < 80) (g : Fin 300) (q : Fin 1000) :
    fgPay x0 x1 x2 x3 x4 x5 (ix3 0 g q)
      = fgEntry (fun c => x0 (ix3 0 q c)) (clsOf (x3 (ix3 0 g 0))) (tB x2 x5 g) (oB x1 x4 q) := by
  unfold fgPay
  rw [pay1_apply, clsCost_apply x0 x3 h3 g q, l1_apply x1 x2 x4 x5 g q, union_apply x1 x2 x4 x5 g q,
    iou_apply x1 x2 x4 x5 g q, enc_apply x1 x2 x4 x5 g q, Ideal.ofBits_zero_f32, zero_sub']
  rfl

/-- A background entry likewise. -/
theorem bgPay_apply (q : Fin 1000) : bgPay x0 (ix3 0 0 q) = bgEntry (fun c => x0 (ix3 0 q c)) := by
  unfold bgPay
  rw [pay2_apply, negSumRow_apply x0 q]
  rfl

/-- One image's 301 × 1000 block of the cost matrix, from the image's blocks of the operands. -/
def costBlock : Vec Ideal S1x301x1000 .f32 := fun y =>
  if h : (y 1).val < 300 then
    fgEntry (fun c => x0 (ix3 0 ⟨(y 2).val, (y 2).isLt⟩ c)) (clsOf (x3 (ix3 0 ⟨(y 1).val, h⟩ 0)))
      (tB x2 x5 ⟨(y 1).val, h⟩) (oB x1 x4 ⟨(y 2).val, (y 2).isLt⟩)
  else bgEntry (fun c => x0 (ix3 0 ⟨(y 2).val, (y 2).isLt⟩ c))

theorem costBlock_apply (r : Fin 301) (q : Fin 1000) :
    costBlock x0 x1 x2 x3 x4 x5 (ix3 0 r q)
      = if h : r.val < 300 then
          fgEntry (fun c => x0 (ix3 0 q c)) (clsOf (x3 (ix3 0 ⟨r.val, h⟩ 0))) (tB x2 x5 ⟨r.val, h⟩) (oB x1 x4 q)
        else bgEntry (fun c => x0 (ix3 0 q c)) := rfl

end Stored

/-! ## What the body leaves in the result's staging buffer -/

section Body

variable (x0 : Vec Ideal S1x1000x80 .f32) (x1 : Vec Ideal S1x1000x4 .f32) (x2 : Vec Ideal S1x300x4 .f32)
  (x3 : Vec Ideal S1x300x1 .i32) (x4 : Vec Ideal S1x1x4 .f32) (x5 : Vec Ideal S1x300x4 .f32)

theorem hz3 : (![0, 0, 0] : Fin 3 → Nat) = fun _ => 0 := funext fun a => by fin_cases a <;> rfl

/-- The two stores' pieces, read back, are the image's block of the cost matrix: each piece is the block's restriction to its
    rectangle, and the two rectangles cover the buffer. -/
theorem out_eq (c : Dev nD) (i : grid0.Coords) (arg1 : Memref sig .tc .vmem S1x1000x80 .f32) (harg1 : arg1.IsWhole)
    (arg2 : Memref sig .tc .vmem S1x1000x4 .f32) (harg2 : arg2.IsWhole) (arg3 : Memref sig .tc .vmem S1x300x4 .f32) (harg3 : arg3.IsWhole)
    (arg4 : Memref sig .tc .vmem S1x300x1 .i32) (harg4 : arg4.IsWhole) (arg5 : Memref sig .tc .vmem S1x1x4 .f32) (harg5 : arg5.IsWhole)
    (arg6 : Memref sig .tc .vmem S1x300x4 .f32) (harg6 : arg6.IsWhole) (arg7 : Memref sig .tc .vmem S1x301x1000 .f32) (harg7 : arg7.IsWhole)
    (h3 : ∀ g : Fin 300, (x3 (ix3 0 g 0)).toNat < 80) :
    out0_A_6 (F := Ideal) c i arg1 harg1 arg2 harg2 arg3 harg3 arg4 harg4 arg5 harg5 arg6 harg6 arg7 harg7 x0 x1 x2 x3 x4 x5
      = costBlock x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (costBlock x0 x1 x2 x3 x4 x5) _ ?_ y
    (cover0_A_6 c i arg1 harg1 arg2 harg2 arg3 harg3 arg4 harg4 arg5 harg5 arg6 harg6 arg7 harg7 x0 x1 x2 x3 x4 x5 y)
  unfold kernelRun0_A
  dsimp only
  sl_unfold_words
  -- each load reads a whole staging buffer: the loaded value is the buffer's contents
  simp only [View.readAt_eq_ld, harg1.read_unread, harg2.read_unread, harg3.read_unread, harg4.read_unread, harg5.read_unread,
    harg6.read_unread, View.ld_unit_zero (S := S1x1000x80) hz3, View.ld_unit_zero (S := S1x1000x4) hz3,
    View.ld_unit_zero (S := S1x300x4) hz3, View.ld_unit_zero (S := S1x300x1) hz3, View.ld_unit_zero (S := S1x1x4) hz3]
  show ∀ p ∈ [(⟨Rect.unit ![0, 300, 0] ![1, 1, 1000] inb_S1x301x1000_S1x1x1000_0_300_0, bgPay x0⟩ : View.Piece (Elt Ideal) S1x301x1000 .f32),
      ⟨Rect.unit ![0, 0, 0] ![1, 300, 1000] inb_S1x301x1000_S1x300x1000_0_0_0, fgPay x0 x1 x2 x3 x4 x5⟩],
    ∀ x : p.1.shape.Idx, p.2 x = costBlock x0 x1 x2 x3 x4 x5 (p.1.emb x)
  intro p hp x
  rcases List.mem_cons.mp hp with rfl | hp
  · -- the background row: the store at rows 300 … 300
    have hx0 : (x 0).val < 1 := (x 0).isLt
    have hx1 : (x 1).val < 1 := (x 1).isLt
    have hx2 : (x 2).val < 1000 := (x 2).isLt
    obtain ⟨q, rfl⟩ : ∃ q : Fin 1000, x = ix3 0 0 q := ⟨⟨(x 2).val, hx2⟩, funext fun a => Fin.ext (by
      match a with
      | ⟨0, _⟩ => show (x 0).val = 0; omega
      | ⟨1, _⟩ => show (x 1).val = 0; omega
      | ⟨2, _⟩ => rfl)⟩
    have hemb : (Rect.unit (s := S1x301x1000) ![0, 300, 0] ![1, 1, 1000] inb_S1x301x1000_S1x1x1000_0_300_0).emb (ix3 0 0 q)
        = ix3 0 (⟨300, by decide⟩ : Fin 301) q := funext fun a => Fin.ext (by
      match a with
      | ⟨0, _⟩ => show 0 + 1 * 0 = 0; rfl
      | ⟨1, _⟩ => show 300 + 1 * 0 = 300; rfl
      | ⟨2, _⟩ => show 0 + 1 * q.val = q.val; omega)
    show bgPay x0 (ix3 0 0 q) = _
    rw [hemb, costBlock_apply, dif_neg (by decide)]
    exact bgPay_apply x0 q
  · -- the foreground rows: the store at rows 0 … 299
    obtain rfl := List.mem_singleton.mp hp
    have hx0 : (x 0).val < 1 := (x 0).isLt
    have hx1 : (x 1).val < 300 := (x 1).isLt
    have hx2 : (x 2).val < 1000 := (x 2).isLt
    obtain ⟨g, q, rfl⟩ : ∃ (g : Fin 300) (q : Fin 1000), x = ix3 0 g q := ⟨⟨(x 1).val, hx1⟩, ⟨(x 2).val, hx2⟩, funext fun a => Fin.ext (by
      match a with
      | ⟨0, _⟩ => show (x 0).val = 0; omega
      | ⟨1, _⟩ => rfl
      | ⟨2, _⟩ => rfl)⟩
    have hg : g.val < 301 := by have := g.isLt; omega
    have hemb : (Rect.unit (s := S1x301x1000) ![0, 0, 0] ![1, 300, 1000] inb_S1x301x1000_S1x300x1000_0_0_0).emb (ix3 0 g q)
        = ix3 0 (⟨g.val, hg⟩ : Fin 301) q := funext fun a => Fin.ext (by
      match a with
      | ⟨0, _⟩ => show 0 + 1 * 0 = 0; rfl
      | ⟨1, _⟩ => show 0 + 1 * g.val = g.val; omega
      | ⟨2, _⟩ => show 0 + 1 * q.val = q.val; omega)
    show fgPay x0 x1 x2 x3 x4 x5 (ix3 0 g q) = _
    rw [hemb, costBlock_apply, dif_pos g.isLt]
    exact fgPay_apply x0 x1 x2 x3 x4 x5 h3 g q

end Body

/-! ## From the blocks to the array -/

section Array

variable (m : (ℓ : Loc nD τ sig) → Buf (Elt Ideal) ℓ) (ρ : Dev nD → PrngReg)

theorem tlt (t : Fin cfg0.N) : t.val < 16 := by
  have h := t.isLt
  have hN : cfg0.N = 16 := N_0
  omega

/-- The image a grid point handles. -/
abbrev img (t : Fin cfg0.N) : Fin 16 := ⟨t.val, tlt t⟩

/-- The printed index maps, decided over the sixteen points: every window's block index is (the point, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The image's blocks of the six operands, at their literal types. -/
abbrev xb0 (c : Dev nD) (t : Fin cfg0.N) : Vec Ideal S1x1000x80 .f32 := iblk m c 0 t
abbrev xb1 (c : Dev nD) (t : Fin cfg0.N) : Vec Ideal S1x1000x4 .f32 := iblk m c 1 t
abbrev xb2 (c : Dev nD) (t : Fin cfg0.N) : Vec Ideal S1x300x4 .f32 := iblk m c 2 t
abbrev xb3 (c : Dev nD) (t : Fin cfg0.N) : Vec Ideal S1x300x1 .i32 := iblk m c 3 t
abbrev xb4 (c : Dev nD) (t : Fin cfg0.N) : Vec Ideal S1x1x4 .f32 := iblk m c 4 t
abbrev xb5 (c : Dev nD) (t : Fin cfg0.N) : Vec Ideal S1x300x4 .f32 := iblk m c 5 t

/-- The arguments as arrays of their literal types. -/
abbrev aLogits (c : Dev nD) : FVec Ideal SLogits .f32 := m ((c : Thread nD τ).loc main_arg0)
abbrev aBoxes (c : Dev nD) : FVec Ideal SBoxes .f32 := m ((c : Thread nD τ).loc main_arg1)
abbrev aGt (c : Dev nD) : FVec Ideal SGt .f32 := m ((c : Thread nD τ).loc main_arg2)
abbrev aSize (c : Dev nD) : FVec Ideal SSize .f32 := m ((c : Thread nD τ).loc main_arg3)
abbrev aSizeT (c : Dev nD) : FVec Ideal SGt .f32 := m ((c : Thread nD τ).loc main_arg4)
abbrev aCls (c : Dev nD) : IVec SCls 32 := m ((c : Thread nD τ).loc main_arg5)

/-- A block's entry is the array's entry in the point's image. -/
theorem xb0_apply (c : Dev nD) (t : Fin cfg0.N) (q : Fin 1000) (k : Fin 80) :
    xb0 m c t (ix3 0 q k) = aLogits m c (ix3 (img t) q k) := by
  rw [show aLogits m c = V m c main_arg0 from (V_main_arg0 m c).symm]
  show V m c main_arg0 (((cfg0.win 0).blk t).view.emb (ix3 0 q k)) = V m c main_arg0 (ix3 (img t) q k)
  refine congrArg _ (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 1000 + 1 * q.val = q.val; omega
  | ⟨2, _⟩ => show win0_0.index t (2 : Fin 3) * 80 + 1 * k.val = k.val; omega

theorem xb1_apply (c : Dev nD) (t : Fin cfg0.N) (q : Fin 1000) (k : Fin 4) :
    xb1 m c t (ix3 0 q k) = aBoxes m c (ix3 (img t) q k) := by
  rw [show aBoxes m c = V m c main_arg1 from (V_main_arg1 m c).symm]
  show V m c main_arg1 (((cfg0.win 1).blk t).view.emb (ix3 0 q k)) = V m c main_arg1 (ix3 (img t) q k)
  refine congrArg _ (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 1000 + 1 * q.val = q.val; omega
  | ⟨2, _⟩ => show win0_1.index t (2 : Fin 3) * 4 + 1 * k.val = k.val; omega

theorem xb2_apply (c : Dev nD) (t : Fin cfg0.N) (g : Fin 300) (k : Fin 4) :
    xb2 m c t (ix3 0 g k) = aGt m c (ix3 (img t) g k) := by
  rw [show aGt m c = V m c main_arg2 from (V_main_arg2 m c).symm]
  show V m c main_arg2 (((cfg0.win 2).blk t).view.emb (ix3 0 g k)) = V m c main_arg2 (ix3 (img t) g k)
  refine congrArg _ (funext fun a => Fin.ext ?_)
  obtain ⟨-, -, ⟨e0, e1, e2⟩, -⟩ := idx_facts t
  match a with
  | ⟨0, _⟩ => show win0_2.index t (0 : Fin 3) * 1 + 1 * 0 = t.val; omega
  | ⟨1, _⟩ => show win0_2.index t (1 : Fin 3) * 300 + 1 * g.val = g.val; omega
  | ⟨2, _⟩ => show win0_2.index t (2 : Fin 3) * 4 + 1 * k.val = k.val; omega

theorem xb5_apply (c : Dev nD) (t : Fin cfg0.N) (g : Fin 300) (k : Fin 4) :
    xb5 m c t (ix3 0 g k) = aSizeT m c (ix3 (img t) g k) := by
  rw [show aSizeT m c = V m c main_arg4 from (V_main_arg4 m c).symm]
  show V m c main_arg4 (((cfg0.win 5).blk t).view.emb (ix3 0 g k)) = V m c main_arg4 (ix3 (img t) g k)
  refine congrArg _ (funext fun a => Fin.ext ?_)
  obtain ⟨-, -, -, -, -, ⟨e0, e1, e2⟩, -⟩ := idx_facts t
  match a with
  | ⟨0, _⟩ => show win0_5.index t (0 : Fin 3) * 1 + 1 * 0 = t.val; omega
  | ⟨1, _⟩ => show win0_5.index t (1 : Fin 3) * 300 + 1 * g.val = g.val; omega
  | ⟨2, _⟩ => show win0_5.index t (2 : Fin 3) * 4 + 1 * k.val = k.val; omega

/-- The class words reach the region reshaped 16 × 300 → 16 × 300 × 1 by the host. -/
theorem V_cls (c : Dev nD) :
    (V m c main_v0 : S16x300x1.Idx → BitVec 32) = shapeCast S16x300x1 (aCls m c) shapeCasts_S16x300_S16x300x1 := by
  dsimp only [V, hostOps0]
  after_results
  rfl

/-- The image size reaches it reshaped 16 × 4 → 16 × 1 × 4. -/
theorem V_size (c : Dev nD) :
    (V m c main_v1 : S16x1x4.Idx → EReal) = shapeCast S16x1x4 (aSize m c) shapeCasts_S16x4_S16x1x4 := by
  dsimp only [V, hostOps0]
  after_results
  rfl

theorem xb3_apply (c : Dev nD) (t : Fin cfg0.N) (g : Fin 300) :
    xb3 m c t (ix3 0 g 0) = aCls m c (ix2 (img t) g) := by
  have hV : xb3 m c t (ix3 0 g 0) = (V m c main_v0 : S16x300x1.Idx → BitVec 32) (ix3 (img t) g 0) := by
    show V m c main_v0 (((cfg0.win 3).blk t).view.emb (ix3 0 g 0)) = V m c main_v0 (ix3 (img t) g 0)
    refine congrArg _ (funext fun a => Fin.ext ?_)
    obtain ⟨-, -, -, ⟨e0, e1, e2⟩, -⟩ := idx_facts t
    match a with
    | ⟨0, _⟩ => show win0_3.index t (0 : Fin 3) * 1 + 1 * 0 = t.val; omega
    | ⟨1, _⟩ => show win0_3.index t (1 : Fin 3) * 300 + 1 * g.val = g.val; omega
    | ⟨2, _⟩ => show win0_3.index t (2 : Fin 3) * 1 + 1 * 0 = 0; omega
  rw [hV, V_cls]
  refine shapeCast_apply _ _ (ix3 (img t) g 0) (ix2 (img t) g) ?_
  show ((⟨2, ![16, 300]⟩ : Shape).rowMajor (ix2 (img t) g)).val = ((⟨3, ![16, 300, 1]⟩ : Shape).rowMajor (ix3 (img t) g 0)).val
  rw [Shape.rowMajor_val_two, Shape.rowMajor_val_three]
  show t.val * 300 + g.val = (t.val * 300 + g.val) * 1 + 0
  omega

theorem xb4_apply (c : Dev nD) (t : Fin cfg0.N) (k : Fin 4) :
    xb4 m c t (ix3 0 0 k) = aSize m c (ix2 (img t) k) := by
  have hV : xb4 m c t (ix3 0 0 k) = (V m c main_v1 : S16x1x4.Idx → EReal) (ix3 (img t) 0 k) := by
    show V m c main_v1 (((cfg0.win 4).blk t).view.emb (ix3 0 0 k)) = V m c main_v1 (ix3 (img t) 0 k)
    refine congrArg _ (funext fun a => Fin.ext ?_)
    obtain ⟨-, -, -, -, ⟨e0, e1, e2⟩, -⟩ := idx_facts t
    match a with
    | ⟨0, _⟩ => show win0_4.index t (0 : Fin 3) * 1 + 1 * 0 = t.val; omega
    | ⟨1, _⟩ => show win0_4.index t (1 : Fin 3) * 1 + 1 * 0 = 0; omega
    | ⟨2, _⟩ => show win0_4.index t (2 : Fin 3) * 4 + 1 * k.val = k.val; omega
  rw [hV, V_size]
  refine shapeCast_apply _ _ (ix3 (img t) 0 k) (ix2 (img t) k) ?_
  show ((⟨2, ![16, 4]⟩ : Shape).rowMajor (ix2 (img t) k)).val = ((⟨3, ![16, 1, 4]⟩ : Shape).rowMajor (ix3 (img t) 0 k)).val
  rw [Shape.rowMajor_val_two, Shape.rowMajor_val_three]
  show t.val * 4 + k.val = (t.val * 1 + 0) * 4 + k.val
  omega

/-- The cost matrix of core `c`'s argument arrays. -/
abbrev costOf (c : Dev nD) : FVec Ideal SCost .f32 :=
  cost (aLogits m c) (aBoxes m c) (aGt m c) (aSize m c) (aSizeT m c) (aCls m c)

/-- The block's row of logits is the array's, in the point's image. -/
theorem logits_blk (c : Dev nD) (t : Fin cfg0.N) (q : Fin 1000) :
    (fun k : Fin 80 => xb0 m c t (ix3 0 q k)) = logitsOf (aLogits m c) (img t) q :=
  funext fun k => xb0_apply m c t q k

/-- The block's normalised target box is the array's. -/
theorem tgt_blk (c : Dev nD) (t : Fin cfg0.N) (g : Fin 300) :
    tB (xb2 m c t) (xb5 m c t) g = tgtN (aGt m c) (aSizeT m c) (img t) g :=
  funext fun k => congrArg₂ Ideal.div (xb2_apply m c t g k) (xb5_apply m c t g k)

/-- The block's normalised predicted box is the array's. -/
theorem out_blk (c : Dev nD) (t : Fin cfg0.N) (q : Fin 1000) :
    oB (xb1 m c t) (xb4 m c t) q = outN (aBoxes m c) (aSize m c) (img t) q :=
  funext fun k => congrArg₂ Ideal.div (xb1_apply m c t q k) (xb4_apply m c t k)

/-- The image's block of the cost matrix, from the image's blocks, is the array's cost matrix at the image's indices. -/
theorem costBlock_eq (c : Dev nD) (t : Fin cfg0.N) (r : Fin 301) (q : Fin 1000) :
    costBlock (xb0 m c t) (xb1 m c t) (xb2 m c t) (xb3 m c t) (xb4 m c t) (xb5 m c t) (ix3 0 r q)
      = costOf m c (ix3 (img t) r q) := by
  show _ = cost (aLogits m c) (aBoxes m c) (aGt m c) (aSize m c) (aSizeT m c) (aCls m c) (ix3 (img t) r q)
  rw [cost_apply, costBlock_apply]
  by_cases hr : r.val < 300
  · rw [dif_pos hr, dif_pos hr]
    unfold fg
    rw [logits_blk m c t q, tgt_blk m c t ⟨r.val, hr⟩, out_blk m c t q, xb3_apply m c t ⟨r.val, hr⟩]
  · rw [dif_neg hr, dif_neg hr]
    unfold bg
    rw [logits_blk m c t q]

/-- What point `t` writes back is the image's block of the cost matrix, from the image's blocks. -/
theorem flushed_blk (c : Dev nD) (hcls : ∀ (b : Fin 16) (g : Fin 300), (aCls m c (ix2 b g)).toNat < 80) (t : Fin cfg0.N) :
    (dats m 0 c).flushed 6 t
      = (cfg0.win 6).cut (grid0.coords t) (costBlock (xb0 m c t) (xb1 m c t) (xb2 m c t) (xb3 m c t) (xb4 m c t) (xb5 m c t)) := by
  have h3 : ∀ g : Fin 300, (xb3 m c t (ix3 0 g 0)).toNat < 80 := fun g => by rw [xb3_apply]; exact hcls _ _
  rw [Value.flushed6_A]
  exact congrArg _ (out_eq (xb0 m c t) (xb1 m c t) (xb2 m c t) (xb3 m c t) (xb4 m c t) (xb5 m c t) c (grid0.coords t)
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) h3)

/-- WHAT POINT `t` WRITES BACK is block `t` of the cost matrix of the argument arrays, the targets' classes being below 80. -/
theorem flushed_eq (c : Dev nD) (hcls : ∀ (b : Fin 16) (g : Fin 300), (aCls m c (ix2 b g)).toNat < 80) (t : Fin cfg0.N) :
    (dats m 0 c).flushed 6 t = ((cfg0.win 6).blk t).view.read (Elt Ideal) (costOf m c) := by
  rw [flushed_blk m c hcls t]
  funext j
  obtain ⟨e0, e1, e2⟩ := (idx_facts t).2.2.2.2.2.2
  have hj0 : (j 0).val < 1 := (j 0).isLt
  have hj1 : (j 1).val < 301 := (j 1).isLt
  have hj2 : (j 2).val < 1000 := (j 2).isLt
  obtain ⟨r, q, rfl⟩ : ∃ (r : Fin 301) (q : Fin 1000), j = ix3 0 r q := ⟨⟨(j 1).val, hj1⟩, ⟨(j 2).val, hj2⟩, funext fun a => Fin.ext (by
    match a with
    | ⟨0, _⟩ => show (j 0).val = 0; omega
    | ⟨1, _⟩ => rfl
    | ⟨2, _⟩ => rfl)⟩
  have hemb : ((cfg0.win 6).blk t).view.emb (ix3 0 r q) = (ix3 (img t) r q : S16x301x1000.Idx) := by
    funext a; apply Fin.ext
    match a with
    | ⟨0, _⟩ => show win0_6.index t (0 : Fin 3) * 1 + 1 * 0 = t.val; omega
    | ⟨1, _⟩ => show win0_6.index t (1 : Fin 3) * 301 + 1 * r.val = r.val; omega
    | ⟨2, _⟩ => show win0_6.index t (2 : Fin 3) * 1000 + 1 * q.val = q.val; omega
  show costBlock (xb0 m c t) (xb1 m c t) (xb2 m c t) (xb3 m c t) (xb4 m c t) (xb5 m c t) (ix3 0 r q)
    = costOf m c (((cfg0.win 6).blk t).view.emb (ix3 0 r q))
  rw [hemb]
  exact costBlock_eq m c t r q

/-- Every index of the result array is in some point's block: the point of its image. -/
theorem cover (i : S16x301x1000.Idx) : ∃ t : Fin cfg0.N, (cfg0.win 6).flush t = true ∧ i ∈ ((cfg0.win 6).blk t).view.set := by
  have hN : cfg0.N = 16 := N_0
  have hi0 : (i 0).val < 16 := (i 0).isLt
  have hi1 : (i 1).val < 301 := (i 1).isLt
  have hi2 : (i 2).val < 1000 := (i 2).isLt
  have ht : (i 0).val < cfg0.N := by omega
  obtain ⟨e0', e1, e2⟩ := (idx_facts ⟨(i 0).val, ht⟩).2.2.2.2.2.2
  have e0 : win0_6.index ⟨(i 0).val, ht⟩ (0 : Fin 3) = (i 0).val := e0'
  refine ⟨⟨(i 0).val, ht⟩, flush0_6 _, ?_⟩
  show i ∈ ((View.whole main_v2).slice (win0_6.rect ⟨(i 0).val, ht⟩)).set
  rw [View.set_slice_whole, Rect.mem_set_unit]
  intro a
  match a with
  | ⟨0, _⟩ => show win0_6.index ⟨(i 0).val, ht⟩ (0 : Fin 3) * 1 ≤ (i 0).val ∧ (i 0).val < win0_6.index ⟨(i 0).val, ht⟩ (0 : Fin 3) * 1 + 1; omega
  | ⟨1, _⟩ => show win0_6.index ⟨(i 0).val, ht⟩ (1 : Fin 3) * 301 ≤ (i 1).val ∧ (i 1).val < win0_6.index ⟨(i 0).val, ht⟩ (1 : Fin 3) * 301 + 301; omega
  | ⟨2, _⟩ => show win0_6.index ⟨(i 0).val, ht⟩ (2 : Fin 3) * 1000 ≤ (i 2).val ∧ (i 2).val < win0_6.index ⟨(i 0).val, ht⟩ (2 : Fin 3) * 1000 + 1000; omega

/-- So the result array ends holding the cost matrix. -/
theorem final (c : Dev nD) (hcls : ∀ (b : Fin 16) (g : Fin 300), (aCls m c (ix2 b g)).toNat < 80) :
    (dats m 0 c).arrAt 6 cfg0.N = costOf m c :=
  (dats m 0 c).arrAt_eq_of_cover 6 (costOf m c) (fun t _ => flushed_eq m c hcls t) cover

/-- The kernel's run, read: the result array at the cost matrix of the arguments, the arguments unchanged. -/
theorem run (hcls : ∀ (c : Dev nD) (b : Fin 16) (g : Fin 300), (aCls m c (ix2 b g)).toNat < 80) :
    θ_run defs (onTc (τ := τ) (main (F := Ideal))) ⟨m, fun _ => 0, ρ⟩ fun r => ∀ c : Dev nD,
      r.2.mem ((c : Thread nD τ).loc main_v2) = costOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hcls c)), (h c).2⟩) (Value.run_blocks m ρ)

end Array

end Cert.KernelIdeal.CostValue

end
-- ==== Proof.RefCls.lean ====
/-
  The reference's classification cost at an index: the per-query sum of the label-0 focal losses, and that sum plus the
  class-switch term gathered at the target's class.
-/
import proofs.«409532_j47974784697138_1_alg».proof.Proof.Gen.ReferenceIdeal.Read
import proofs.«409532_j47974784697138_1_alg».proof.Proof.CostSpec

noncomputable section

open scoped BigOperators

namespace Cert.ReferenceIdeal.RefCost

open Cert.ReferenceIdeal Cert.ReferenceIdeal.Read Cert.CostSpec
open Idealize.ShloMosaic Idealize.ShloMosaic.ValueIdx

/-! ## One logit at a time -/

/-- The reference spells the logistic function `1 / (1 + e^(−x))`. -/
theorem sigmoid_apply (x0 : (⟨S16x1000x80, .f32⟩ : BufTy).Contents (Elt Ideal)) (i : S16x1000x80.Idx) :
    val_main_v5 (F := Ideal) x0 i = Ideal.logistic (x0 i) := by
  simp only [val_main_v5_apply, val_main_v4_apply, val_main_cst_0_apply, val_main_v3_apply, val_main_v2_apply,
    val_main_cst_apply, val_main_v1_apply, val_main_v0_apply, Ideal.ofBits_def, Ideal.hostDivf_def, Ideal.addf_def,
    Ideal.hostUnary_exp_def, Ideal.hostNegf_def, Ideal.negf_def, ofBits_one, logistic_eq]

/-- The reference's softplus of the logit: the not-a-number guard is off, and `x − 0 = x`. -/
theorem softplus_apply (x0 : (⟨S16x1000x80, .f32⟩ : BufTy).Contents (Elt Ideal)) (i : S16x1000x80.Idx) :
    val_main_v8 (F := Ideal) x0 i = softplus (x0 i) := by
  simp only [val_main_v8_apply, val_main_call1_v4_apply, val_main_call1_v11_apply, val_main_call1_v1_apply,
    val_main_call1_v0_apply, val_main_call1_cst_apply, val_main_call1_v10_apply, val_main_call1_v9_apply,
    val_main_call1_v8_apply, val_main_call1_v7_apply, val_main_call1_v3_apply, val_main_call1_v2_apply,
    Ideal.cmpf_def, cmp_une_self, select_zero, Ideal.ofBits_def, Ideal.ofBits_zero_f32, Ideal.addf_def, Ideal.maximumf_def,
    Ideal.hostUnary_log1p_def, Ideal.hostUnary_exp_def, Ideal.hostNegf_def, Ideal.negf_def, Ideal.hostAbsf_def,
    Ideal.absf_def, Ideal.subf_def, sub_zero', softplus]

/-- The reference's softplus of the negated logit. -/
theorem softplus_neg_apply (x0 : (⟨S16x1000x80, .f32⟩ : BufTy).Contents (Elt Ideal)) (i : S16x1000x80.Idx) :
    val_main_v7 (F := Ideal) x0 i = softplus (-(x0 i)) := by
  simp only [val_main_v7_apply, val_main_call0_v4_apply, val_main_call0_v11_apply, val_main_call0_v1_apply,
    val_main_call0_v0_apply, val_main_call0_cst_apply, val_main_call0_v10_apply, val_main_call0_v9_apply,
    val_main_call0_v8_apply, val_main_call0_v7_apply, val_main_call0_v3_apply, val_main_call0_v2_apply,
    val_main_v6_apply,
    Ideal.cmpf_def, cmp_une_self, select_zero, Ideal.ofBits_def, Ideal.ofBits_zero_f32, Ideal.addf_def, Ideal.maximumf_def,
    Ideal.hostUnary_log1p_def, Ideal.hostUnary_exp_def, Ideal.hostNegf_def, Ideal.negf_def, Ideal.hostAbsf_def,
    Ideal.absf_def, Ideal.subf_def, sub_zero', softplus]

/-- The label-0 focal loss: `¾ · σ(x) ** 2.0 · softplus(x)`, the power being the square. -/
theorem lossNeg_apply (x0 : (⟨S16x1000x80, .f32⟩ : BufTy).Contents (Elt Ideal)) (i : S16x1000x80.Idx) :
    val_main_v20 (F := Ideal) x0 i = lossNeg (x0 i) := by
  simp only [val_main_v20_apply, val_main_v19_apply, val_main_v18_apply, val_main_cst_5_apply, val_main_v17_apply,
    val_main_v16_apply, val_main_cst_4_apply, sigmoid_apply, softplus_apply, Ideal.ofBits_def, Ideal.mulf_def,
    Ideal.hostPowf_def, pow_two_logistic, lossNeg]

/-- The label-1 focal loss: `¼ · (1 − σ(x)) ** 2.0 · softplus(−x)`. -/
theorem lossPos_apply (x0 : (⟨S16x1000x80, .f32⟩ : BufTy).Contents (Elt Ideal)) (i : S16x1000x80.Idx) :
    val_main_v15 (F := Ideal) x0 i = lossPos (x0 i) := by
  simp only [val_main_v15_apply, val_main_v14_apply, val_main_v13_apply, val_main_cst_3_apply, val_main_v12_apply,
    val_main_v11_apply, val_main_cst_2_apply, val_main_v10_apply, val_main_v9_apply, val_main_cst_1_apply,
    sigmoid_apply, softplus_neg_apply, Ideal.ofBits_def, Ideal.mulf_def, Ideal.subf_def,
    Ideal.hostPowf_def, ofBits_one, pow_two_one_sub_logistic, lossPos]

/-- The class-switch term. -/
theorem delta_apply (x0 : (⟨S16x1000x80, .f32⟩ : BufTy).Contents (Elt Ideal)) (i : S16x1000x80.Idx) :
    val_main_v22 (F := Ideal) x0 i = delta (x0 i) := by
  simp only [val_main_v22_apply, lossPos_apply, lossNeg_apply, Ideal.subf_def, delta]

/-! ## The sum over the classes -/

/-- The reference's sum over the classes of the label-0 focal loss of query `q` in image `b`. -/
theorem negSum_eq (x0 : (⟨S16x1000x80, .f32⟩ : BufTy).Contents (Elt Ideal)) (b : Fin 16) (q : Fin 1000) :
    val_main_v21 (F := Ideal) x0 (ix2 b q) = ∑ c : Fin 80, lossNeg (x0 (ix3 b q c)) := by
  rw [val_main_v21_apply, val_main_cst_6_apply, Ideal.ofBits_def, Ideal.ofBits_zero_f32, zero_add]
  refine Finset.sum_congr rfl fun c _ => ?_
  rw [lossNeg_apply]
  exact congrArg (fun j => lossNeg (x0 j))
    (funext fun a => Fin.ext (by match a with | ⟨0, _⟩ => rfl | ⟨1, _⟩ => rfl | ⟨2, _⟩ => rfl))

/-! ## The class words -/

/-- A class word below 80 reads the same signed and unsigned. -/
theorem toInt_of_lt {w : BitVec 32} (hw : w.toNat < 80) : w.toInt = (w.toNat : Int) := by
  rw [BitVec.toInt_eq_toNat_cond]
  split <;> omega

/-- … so it is not negative, … -/
theorem slt_zero {w : BitVec 32} (hw : w.toNat < 80) : IntOp.cmpi .slt w 0#32 = 0#1 :=
  eq_zero_of_ne_one fun h => by
    have h0 := IntOp.cmpi_slt.mp h
    rw [toInt_of_lt hw, show (0#32 : BitVec 32).toInt = 0 from by decide] at h0
    omega

theorem sge_zero {w : BitVec 32} (hw : w.toNat < 80) : IntOp.cmpi .sge w 0#32 = 1#1 :=
  IntOp.cmpi_sge.mpr (by rw [toInt_of_lt hw, show (0#32 : BitVec 32).toInt = 0 from by decide]; omega)

/-- … and at most 79. -/
theorem sle_79 {w : BitVec 32} (hw : w.toNat < 80) : IntOp.cmpi .sle w 79#32 = 1#1 :=
  IntOp.cmpi_sle.mpr (by rw [toInt_of_lt hw, show (79#32 : BitVec 32).toInt = 79 from by decide]; omega)

/-- A conjunction of ones, folded from one, is one. -/
theorem foldl_andi_one {ι : Type} (l : List ι) (x : ι → BitVec 1) (hx : ∀ i, x i = 1#1) :
    l.foldl (fun r i => IntOp.andi r (x i)) 1#1 = 1#1 := by
  induction l with
  | nil => rfl
  | cons a l ih => rw [List.foldl_cons, hx a]; exact ih

/-! ## `take_along_axis` at the class words -/

section Take

variable (x5 : (⟨S16x300, .i32⟩ : BufTy).Contents (Elt Ideal)) (h5 : ∀ (b : Fin 16) (g : Fin 300), (x5 (ix2 b g)).toNat < 80)
include h5

/-- The start index handed to the gather is the class word itself: not negative, so not wrapped by 80. -/
theorem startIdx_apply (b : Fin 16) (g : Fin 300) (z : Fin 1) :
    val_main_call2_v4 (F := Ideal) x5 (ix3 b g z) = x5 (ix2 b g) := by
  have hv : val_main_v24 (F := Ideal) x5 (ix3 b g z) = x5 (ix2 b g) := by
    rw [val_main_v24_apply]
    exact congrArg x5 (funext fun a => Fin.ext (by match a with | ⟨0, _⟩ => rfl | ⟨1, _⟩ => rfl))
  rw [val_main_call2_v4_apply, val_main_call2_v1_apply, val_main_call2_v0_apply, val_main_call2_c_apply, hv,
    slt_zero (h5 b g), select_zero]

/-- Every start index is in bounds. -/
theorem inBounds_apply (j : S16x300x1.Idx) : val_main_call2_v10 (F := Ideal) x5 j = 1#1 := by
  obtain ⟨b, g, z, rfl⟩ : ∃ (b : Fin 16) (g : Fin 300) (z : Fin 1), j = ix3 b g z := ⟨j 0, j 1, j 2, eq_ix3 j⟩
  rw [val_main_call2_v10_apply, val_main_call2_v6_apply, val_main_call2_v9_apply, startIdx_apply x5 h5,
    val_main_call2_v5_apply, val_main_call2_c_2_apply, val_main_call2_v8_apply, val_main_call2_v7_apply,
    val_main_call2_c_1_apply, sge_zero (h5 b g), sle_79 (h5 b g)]
  rfl

/-- So the mask, the conjunction over the index vector's one component, is on everywhere. -/
theorem mask_apply (j : S16x300.Idx) : val_main_call2_v11 (F := Ideal) x5 j = 1#1 := by
  unfold val_main_call2_v11
  rw [Host.reduce_eq_foldl, val_main_call2_c_3_apply]
  exact foldl_andi_one _ _ (inBounds_apply x5 h5)

end Take

/-- The gather at `(b, g, q)`: the operand at `(b, k, q)`, `k` the start index at `(b, g, 0)` read signed and clamped to
    `[0, 79]` — the class itself when the word is below 80. -/
theorem gather_apply (x : (⟨S16x80x1000, .f32⟩ : BufTy).Contents (Elt Ideal)) (idx : (⟨S16x300x1, .i32⟩ : BufTy).Contents (Elt Ideal))
    (b : Fin 16) (g : Fin 300) (q : Fin 1000) (hk : (idx (ix3 b g 0)).toNat < 80) :
    Host.gather gather_S16x80x1000_S16x300x1_S16x300x1000_2_1_0_0_1_2_111000 x idx (ix3 b g q)
      = x (ix3 b (clsOf (idx (ix3 b g 0))) q) := by
  unfold Host.gather
  refine congrArg x (funext fun a => Fin.ext ?_)
  match a with
  | ⟨0, _⟩ =>
    show gather_S16x80x1000_S16x300x1_S16x300x1000_2_1_0_0_1_2_111000.start (ix3 b g q) idx 0 + gather_S16x80x1000_S16x300x1_S16x300x1000_2_1_0_0_1_2_111000.batchCoord (ix3 b g q) 0 + gather_S16x80x1000_S16x300x1_S16x300x1000_2_1_0_0_1_2_111000.offCoord (ix3 b g q) 0 = b.val
    rw [GatherDims.start_batching _ _ _ _ (by decide), GatherDims.offCoord_eq_zero _ _ _ (by decide)]
    simp only [Nat.zero_add, Nat.add_zero]
    rfl
  | ⟨1, _⟩ =>
    show gather_S16x80x1000_S16x300x1_S16x300x1000_2_1_0_0_1_2_111000.start (ix3 b g q) idx 1 + gather_S16x80x1000_S16x300x1_S16x300x1000_2_1_0_0_1_2_111000.batchCoord (ix3 b g q) 1 + gather_S16x80x1000_S16x300x1_S16x300x1000_2_1_0_0_1_2_111000.offCoord (ix3 b g q) 1
      = (clsOf (idx (ix3 b g 0))).val
    rw [GatherDims.batchCoord_eq_zero _ _ _ (by decide), GatherDims.offCoord_eq_zero _ _ _ (by decide)]
    simp only [Nat.add_zero]
    unfold GatherDims.start
    rw [dif_pos (show (1 : Fin S16x80x1000.rank) ∈ gather_S16x80x1000_S16x300x1_S16x300x1000_2_1_0_0_1_2_111000.startIndexMap from List.mem_singleton.mpr rfl)]
    have hsi : gather_S16x80x1000_S16x300x1_S16x300x1000_2_1_0_0_1_2_111000.siIdx (ix3 b g q) ⟨List.idxOf (1 : Fin S16x80x1000.rank) gather_S16x80x1000_S16x300x1_S16x300x1000_2_1_0_0_1_2_111000.startIndexMap,
        List.idxOf_lt_length_iff.2 (List.mem_singleton.mpr rfl)⟩ = ix3 b g 0 := by
      funext c; refine Fin.ext ?_
      match c with
      | ⟨0, _⟩ => rfl
      | ⟨1, _⟩ => rfl
      | ⟨2, _⟩ => rfl
    rw [hsi, clsOf_val hk, toInt_of_lt hk]
    show min (idx (ix3 b g 0)).toNat (80 - 1) = (idx (ix3 b g 0)).toNat
    omega
  | ⟨2, _⟩ =>
    show gather_S16x80x1000_S16x300x1_S16x300x1000_2_1_0_0_1_2_111000.start (ix3 b g q) idx 2 + gather_S16x80x1000_S16x300x1_S16x300x1000_2_1_0_0_1_2_111000.batchCoord (ix3 b g q) 2 + gather_S16x80x1000_S16x300x1_S16x300x1000_2_1_0_0_1_2_111000.offCoord (ix3 b g q) 2 = q.val
    have hs : gather_S16x80x1000_S16x300x1_S16x300x1000_2_1_0_0_1_2_111000.start (ix3 b g q) idx 2 = 0 := by
      unfold GatherDims.start
      rw [dif_neg (by decide)]
    rw [hs, GatherDims.batchCoord_eq_zero _ _ _ (by decide)]
    simp only [Nat.zero_add, Nat.add_zero]
    rfl

/-! ## The classification cost -/

/-- The reference's classification cost of target `g` against query `q`: the sum above plus the class-switch term of the
    target's class, read by `take_along_axis` — in range by the hypothesis, so neither wrapped nor filled. -/
theorem clsCost_eq (x0 : (⟨S16x1000x80, .f32⟩ : BufTy).Contents (Elt Ideal)) (x5 : (⟨S16x300, .i32⟩ : BufTy).Contents (Elt Ideal))
    (h5 : ∀ (b : Fin 16) (g : Fin 300), (x5 (ix2 b g)).toNat < 80) (b : Fin 16) (g : Fin 300) (q : Fin 1000) :
    val_main_v28 (F := Ideal) x0 x5 (ix3 b g q)
      = (∑ c : Fin 80, lossNeg (x0 (ix3 b q c))) + delta (x0 (ix3 b q (clsOf (x5 (ix2 b g))))) := by
  have hsum : idx_main_v26 (idx_main_v27 (ix3 b g q)) = ix2 b q :=
    funext fun a => Fin.ext (by match a with | ⟨0, _⟩ => rfl | ⟨1, _⟩ => rfl)
  have hmask : idx_main_call2_v13 (ix3 b g q) = ix2 b g :=
    funext fun a => Fin.ext (by match a with | ⟨0, _⟩ => rfl | ⟨1, _⟩ => rfl)
  have htr : idx_main_v23 (ix3 b (clsOf (x5 (ix2 b g))) q) = ix3 b q (clsOf (x5 (ix2 b g))) :=
    funext fun a => Fin.ext (by match a with | ⟨0, _⟩ => rfl | ⟨1, _⟩ => rfl | ⟨2, _⟩ => rfl)
  rw [val_main_v28_apply, val_main_v27_apply, val_main_v26_apply, hsum, negSum_eq, val_main_v25_apply,
    val_main_call2_v13_apply, hmask, mask_apply x5 h5, select_one]
  unfold val_main_call2_v12
  rw [gather_apply _ _ b g q (by rw [startIdx_apply x5 h5]; exact h5 b g), startIdx_apply x5 h5, val_main_v23_apply,
    htr, delta_apply]
  rfl

end Cert.ReferenceIdeal.RefCost

end
-- ==== Proof.RefBox.lean ====
/-
  The reference's two box costs at an index: the L1 distance and the negated generalised IoU of target `g`'s normalised box
  against query `q`'s.
-/
import proofs.«409532_j47974784697138_1_alg».proof.Proof.Gen.ReferenceIdeal.Read
import proofs.«409532_j47974784697138_1_alg».proof.Proof.CostSpec

noncomputable section

open scoped BigOperators

namespace Cert.ReferenceIdeal.RefCost

open Cert.ReferenceIdeal Cert.ReferenceIdeal.Read Cert.CostSpec
open Idealize.ShloMosaic Idealize.ShloMosaic.ValueIdx

section Boxes

variable (x1 : (⟨S16x1000x4, .f32⟩ : BufTy).Contents (Elt Ideal)) (x2 : (⟨S16x300x4, .f32⟩ : BufTy).Contents (Elt Ideal))
  (x3 : (⟨S16x4, .f32⟩ : BufTy).Contents (Elt Ideal)) (x4 : (⟨S16x300x4, .f32⟩ : BufTy).Contents (Elt Ideal))
  (b : Fin 16) (g : Fin 300) (q : Fin 1000)

/-! ## The two normalised boxes -/

/-- The target box over its own image size, one coordinate. -/
theorem v32_at (k : Fin 4) : val_main_v32 (F := Ideal) x2 x4 (ix3 b g k) = tgtN x2 x4 b g k := rfl

/-- The predicted box over the image size (broadcast along the queries), one coordinate. -/
theorem v31_at (k : Fin 4) : val_main_v31 (F := Ideal) x1 x3 (ix3 b q k) = outN x1 x3 b q k := by
  rw [val_main_v31_apply, val_main_v30_apply, val_main_v29_apply]
  have h : idx_main_v29 (idx_main_v30 (ix3 b q k)) = ix2 b k :=
    funext fun a => Fin.ext (by match a with | ⟨0, _⟩ => rfl | ⟨1, _⟩ => rfl)
  rw [h]; rfl

/-- The target box broadcast over the queries. -/
theorem v35_at (k : Fin 4) : val_main_v35 (F := Ideal) x2 x4 (ix4 b g q k) = tgtN x2 x4 b g k := by
  rw [val_main_v35_apply, val_main_v33_apply]
  have h : idx_main_v33 (idx_main_v35 (ix4 b g q k)) = ix3 b g k :=
    funext fun a => Fin.ext (by match a with | ⟨0, _⟩ => rfl | ⟨1, _⟩ => rfl | ⟨2, _⟩ => rfl)
  rw [h]; exact v32_at x2 x4 b g k

/-- The predicted box broadcast over the targets. -/
theorem v36_at (k : Fin 4) : val_main_v36 (F := Ideal) x1 x3 (ix4 b g q k) = outN x1 x3 b q k := by
  rw [val_main_v36_apply, val_main_v34_apply]
  have h : idx_main_v34 (idx_main_v36 (ix4 b g q k)) = ix3 b q k :=
    funext fun a => Fin.ext (by match a with | ⟨0, _⟩ => rfl | ⟨1, _⟩ => rfl | ⟨2, _⟩ => rfl)
  rw [h]; exact v31_at x1 x3 b q k

/-! ## The L1 distance -/

theorem v38_at (k : Fin 4) :
    val_main_v38 (F := Ideal) x1 x2 x3 x4 (ix4 b g q k) = absDiff (tgtN x2 x4 b g k) (outN x1 x3 b q k) := by
  rw [val_main_v38_apply, val_main_v37_apply, v35_at, v36_at]
  rfl

theorem v39_at : val_main_v39 (F := Ideal) x1 x2 x3 x4 (ix3 b g q) = l1 (tgtN x2 x4 b g) (outN x1 x3 b q) := by
  rw [val_main_v39_apply, val_main_cst_7_apply, Ideal.ofBits_def, Ideal.ofBits_zero_f32, zero_add]
  unfold l1
  refine Finset.sum_congr rfl fun k _ => ?_
  have h : idx_main_v39 (ix3 b g q) k = ix4 b g q k :=
    funext fun a => Fin.ext (by match a with | ⟨0, _⟩ => rfl | ⟨1, _⟩ => rfl | ⟨2, _⟩ => rfl | ⟨3, _⟩ => rfl)
  rw [h]; exact v38_at x1 x2 x3 x4 b g q k

end Boxes

/-! ## The two areas -/

/-- The first two coordinates (x1, y1) of a pair slice `[.., 0:2]`. -/
def loC (j : Fin 2) : Fin 4 := ⟨j.val, by omega⟩
/-- The last two coordinates (x2, y2): a pair slice `[.., 2:4]` at component `j` reads coordinate `2 + j`. -/
def hiC (j : Fin 2) : Fin 4 := ⟨2 + j.val, by omega⟩

section Giou

variable (x1 : (⟨S16x1000x4, .f32⟩ : BufTy).Contents (Elt Ideal)) (x2 : (⟨S16x300x4, .f32⟩ : BufTy).Contents (Elt Ideal))
  (x3 : (⟨S16x4, .f32⟩ : BufTy).Contents (Elt Ideal)) (x4 : (⟨S16x300x4, .f32⟩ : BufTy).Contents (Elt Ideal))
  (b : Fin 16) (g : Fin 300) (q : Fin 1000)

theorem v43_at : val_main_v43 (F := Ideal) x2 x4 (ix2 b g) = tgtN x2 x4 b g 2 := by
  rw [val_main_v43_apply, val_main_v42_apply]
  have hb := b.isLt
  have hg := g.isLt
  have h : idx_main_v42 (idx_main_v43 (ix2 b g)) = ix3 b g 2 :=
    funext fun a => Fin.ext (by
      match a with
      | ⟨0, _⟩ => show (b.val * 300 + g.val) / 300 = b.val; omega
      | ⟨1, _⟩ => show (b.val * 300 + g.val) / 1 % 300 = g.val; omega
      | ⟨2, _⟩ => rfl)
  rw [h]; exact v32_at x2 x4 b g 2

theorem v45_at : val_main_v45 (F := Ideal) x2 x4 (ix2 b g) = tgtN x2 x4 b g 0 := by
  rw [val_main_v45_apply, val_main_v44_apply]
  have hb := b.isLt
  have hg := g.isLt
  have h : idx_main_v44 (idx_main_v45 (ix2 b g)) = ix3 b g 0 :=
    funext fun a => Fin.ext (by
      match a with
      | ⟨0, _⟩ => show (b.val * 300 + g.val) / 300 = b.val; omega
      | ⟨1, _⟩ => show (b.val * 300 + g.val) / 1 % 300 = g.val; omega
      | ⟨2, _⟩ => rfl)
  rw [h]; exact v32_at x2 x4 b g 0

theorem v48_at : val_main_v48 (F := Ideal) x2 x4 (ix2 b g) = tgtN x2 x4 b g 3 := by
  rw [val_main_v48_apply, val_main_v47_apply]
  have hb := b.isLt
  have hg := g.isLt
  have h : idx_main_v47 (idx_main_v48 (ix2 b g)) = ix3 b g 3 :=
    funext fun a => Fin.ext (by
      match a with
      | ⟨0, _⟩ => show (b.val * 300 + g.val) / 300 = b.val; omega
      | ⟨1, _⟩ => show (b.val * 300 + g.val) / 1 % 300 = g.val; omega
      | ⟨2, _⟩ => rfl)
  rw [h]; exact v32_at x2 x4 b g 3

theorem v50_at : val_main_v50 (F := Ideal) x2 x4 (ix2 b g) = tgtN x2 x4 b g 1 := by
  rw [val_main_v50_apply, val_main_v49_apply]
  have hb := b.isLt
  have hg := g.isLt
  have h : idx_main_v49 (idx_main_v50 (ix2 b g)) = ix3 b g 1 :=
    funext fun a => Fin.ext (by
      match a with
      | ⟨0, _⟩ => show (b.val * 300 + g.val) / 300 = b.val; omega
      | ⟨1, _⟩ => show (b.val * 300 + g.val) / 1 % 300 = g.val; omega
      | ⟨2, _⟩ => rfl)
  rw [h]; exact v32_at x2 x4 b g 1

/-- The target box's area. -/
theorem v52_at : val_main_v52 (F := Ideal) x2 x4 (ix2 b g) = boxArea (tgtN x2 x4 b g) := by
  rw [val_main_v52_apply, val_main_v46_apply, val_main_v51_apply, v43_at, v45_at, v48_at, v50_at]
  rfl

theorem v54_at : val_main_v54 (F := Ideal) x1 x3 (ix2 b q) = outN x1 x3 b q 2 := by
  rw [val_main_v54_apply, val_main_v53_apply]
  have hb := b.isLt
  have hq := q.isLt
  have h : idx_main_v53 (idx_main_v54 (ix2 b q)) = ix3 b q 2 :=
    funext fun a => Fin.ext (by
      match a with
      | ⟨0, _⟩ => show (b.val * 1000 + q.val) / 1000 = b.val; omega
      | ⟨1, _⟩ => show (b.val * 1000 + q.val) / 1 % 1000 = q.val; omega
      | ⟨2, _⟩ => rfl)
  rw [h]; exact v31_at x1 x3 b q 2

theorem v56_at : val_main_v56 (F := Ideal) x1 x3 (ix2 b q) = outN x1 x3 b q 0 := by
  rw [val_main_v56_apply, val_main_v55_apply]
  have hb := b.isLt
  have hq := q.isLt
  have h : idx_main_v55 (idx_main_v56 (ix2 b q)) = ix3 b q 0 :=
    funext fun a => Fin.ext (by
      match a with
      | ⟨0, _⟩ => show (b.val * 1000 + q.val) / 1000 = b.val; omega
      | ⟨1, _⟩ => show (b.val * 1000 + q.val) / 1 % 1000 = q.val; omega
      | ⟨2, _⟩ => rfl)
  rw [h]; exact v31_at x1 x3 b q 0

theorem v59_at : val_main_v59 (F := Ideal) x1 x3 (ix2 b q) = outN x1 x3 b q 3 := by
  rw [val_main_v59_apply, val_main_v58_apply]
  have hb := b.isLt
  have hq := q.isLt
  have h : idx_main_v58 (idx_main_v59 (ix2 b q)) = ix3 b q 3 :=
    funext fun a => Fin.ext (by
      match a with
      | ⟨0, _⟩ => show (b.val * 1000 + q.val) / 1000 = b.val; omega
      | ⟨1, _⟩ => show (b.val * 1000 + q.val) / 1 % 1000 = q.val; omega
      | ⟨2, _⟩ => rfl)
  rw [h]; exact v31_at x1 x3 b q 3

theorem v61_at : val_main_v61 (F := Ideal) x1 x3 (ix2 b q) = outN x1 x3 b q 1 := by
  rw [val_main_v61_apply, val_main_v60_apply]
  have hb := b.isLt
  have hq := q.isLt
  have h : idx_main_v60 (idx_main_v61 (ix2 b q)) = ix3 b q 1 :=
    funext fun a => Fin.ext (by
      match a with
      | ⟨0, _⟩ => show (b.val * 1000 + q.val) / 1000 = b.val; omega
      | ⟨1, _⟩ => show (b.val * 1000 + q.val) / 1 % 1000 = q.val; omega
      | ⟨2, _⟩ => rfl)
  rw [h]; exact v31_at x1 x3 b q 1

/-- The predicted box's area. -/
theorem v63_at : val_main_v63 (F := Ideal) x1 x3 (ix2 b q) = boxArea (outN x1 x3 b q) := by
  rw [val_main_v63_apply, val_main_v57_apply, val_main_v62_apply, v54_at, v56_at, v59_at, v61_at]
  rfl

/-! ## The intersection -/

theorem v66_at (j : Fin 2) : val_main_v66 (F := Ideal) x2 x4 (ix4 b g q j) = tgtN x2 x4 b g (loC j) := by
  rw [val_main_v66_apply, val_main_v64_apply, val_main_v40_apply]
  have h : idx_main_v40 (idx_main_v64 (idx_main_v66 (ix4 b g q j))) = ix3 b g (loC j) :=
    funext fun a => Fin.ext (by match a with | ⟨0, _⟩ => rfl | ⟨1, _⟩ => rfl | ⟨2, _⟩ => rfl)
  rw [h]; exact v32_at x2 x4 b g (loC j)

theorem v67_at (j : Fin 2) : val_main_v67 (F := Ideal) x1 x3 (ix4 b g q j) = outN x1 x3 b q (loC j) := by
  rw [val_main_v67_apply, val_main_v65_apply, val_main_v41_apply]
  have h : idx_main_v41 (idx_main_v65 (idx_main_v67 (ix4 b g q j))) = ix3 b q (loC j) :=
    funext fun a => Fin.ext (by match a with | ⟨0, _⟩ => rfl | ⟨1, _⟩ => rfl | ⟨2, _⟩ => rfl)
  rw [h]; exact v31_at x1 x3 b q (loC j)

theorem v71_at (j : Fin 2) : val_main_v71 (F := Ideal) x2 x4 (ix4 b g q j) = tgtN x2 x4 b g (hiC j) := by
  rw [val_main_v71_apply, val_main_v69_apply, val_main_v40_apply]
  have h : idx_main_v40 (idx_main_v69 (idx_main_v71 (ix4 b g q j))) = ix3 b g (hiC j) :=
    funext fun a => Fin.ext (by match a with | ⟨0, _⟩ => rfl | ⟨1, _⟩ => rfl | ⟨2, _⟩ => rfl)
  rw [h]; exact v32_at x2 x4 b g (hiC j)

theorem v72_at (j : Fin 2) : val_main_v72 (F := Ideal) x1 x3 (ix4 b g q j) = outN x1 x3 b q (hiC j) := by
  rw [val_main_v72_apply, val_main_v70_apply, val_main_v41_apply]
  have h : idx_main_v41 (idx_main_v70 (idx_main_v72 (ix4 b g q j))) = ix3 b q (hiC j) :=
    funext fun a => Fin.ext (by match a with | ⟨0, _⟩ => rfl | ⟨1, _⟩ => rfl | ⟨2, _⟩ => rfl)
  rw [h]; exact v31_at x1 x3 b q (hiC j)

/-- The intersection's extent along one axis, clipped at zero. -/
theorem v75_at (j : Fin 2) : val_main_v75 (F := Ideal) x1 x2 x3 x4 (ix4 b g q j)
    = max 0 (min (tgtN x2 x4 b g (hiC j)) (outN x1 x3 b q (hiC j)) - max (tgtN x2 x4 b g (loC j)) (outN x1 x3 b q (loC j))) := by
  rw [val_main_v75_apply, val_main_v74_apply, val_main_v73_apply, val_main_v68_apply, v66_at, v67_at, v71_at, v72_at,
    val_main_call3_v1_apply, val_main_call3_v0_apply, val_main_cst_8_apply, Ideal.ofBits_def, Ideal.ofBits_zero_f32]
  rfl

theorem v77_at : val_main_v77 (F := Ideal) x1 x2 x3 x4 (ix3 b g q) = max 0 (min (tgtN x2 x4 b g 2) (outN x1 x3 b q 2) - max (tgtN x2 x4 b g 0) (outN x1 x3 b q 0)) := by
  rw [val_main_v77_apply, val_main_v76_apply]
  have hb := b.isLt
  have hg := g.isLt
  have hq := q.isLt
  have h : idx_main_v76 (idx_main_v77 (ix3 b g q)) = ix4 b g q (0 : Fin 2) :=
    funext fun a => Fin.ext (by
      match a with
      | ⟨0, _⟩ => show ((b.val * 300 + g.val) * 1000 + q.val) / 300000 = b.val; omega
      | ⟨1, _⟩ => show ((b.val * 300 + g.val) * 1000 + q.val) / 1000 % 300 = g.val; omega
      | ⟨2, _⟩ => show ((b.val * 300 + g.val) * 1000 + q.val) / 1 % 1000 = q.val; omega
      | ⟨3, _⟩ => rfl)
  rw [h, v75_at]; rfl

theorem v79_at : val_main_v79 (F := Ideal) x1 x2 x3 x4 (ix3 b g q) = max 0 (min (tgtN x2 x4 b g 3) (outN x1 x3 b q 3) - max (tgtN x2 x4 b g 1) (outN x1 x3 b q 1)) := by
  rw [val_main_v79_apply, val_main_v78_apply]
  have hb := b.isLt
  have hg := g.isLt
  have hq := q.isLt
  have h : idx_main_v78 (idx_main_v79 (ix3 b g q)) = ix4 b g q (1 : Fin 2) :=
    funext fun a => Fin.ext (by
      match a with
      | ⟨0, _⟩ => show ((b.val * 300 + g.val) * 1000 + q.val) / 300000 = b.val; omega
      | ⟨1, _⟩ => show ((b.val * 300 + g.val) * 1000 + q.val) / 1000 % 300 = g.val; omega
      | ⟨2, _⟩ => show ((b.val * 300 + g.val) * 1000 + q.val) / 1 % 1000 = q.val; omega
      | ⟨3, _⟩ => rfl)
  rw [h, v75_at]; rfl

/-- The intersection's area. -/
theorem v80_at : val_main_v80 (F := Ideal) x1 x2 x3 x4 (ix3 b g q) = interArea (tgtN x2 x4 b g) (outN x1 x3 b q) := by
  rw [val_main_v80_apply, v77_at, v79_at]
  rfl

/-! ## The union and the IoU -/

theorem v83_at : val_main_v83 (F := Ideal) x2 x4 (ix3 b g q) = boxArea (tgtN x2 x4 b g) := by
  rw [val_main_v83_apply, val_main_v81_apply]
  have h : idx_main_v81 (idx_main_v83 (ix3 b g q)) = ix2 b g :=
    funext fun a => Fin.ext (by match a with | ⟨0, _⟩ => rfl | ⟨1, _⟩ => rfl)
  rw [h]; exact v52_at x2 x4 b g

theorem v84_at : val_main_v84 (F := Ideal) x1 x3 (ix3 b g q) = boxArea (outN x1 x3 b q) := by
  rw [val_main_v84_apply, val_main_v82_apply]
  have h : idx_main_v82 (idx_main_v84 (ix3 b g q)) = ix2 b q :=
    funext fun a => Fin.ext (by match a with | ⟨0, _⟩ => rfl | ⟨1, _⟩ => rfl)
  rw [h]; exact v63_at x1 x3 b q

/-- The union's area. -/
theorem v86_at : val_main_v86 (F := Ideal) x1 x2 x3 x4 (ix3 b g q) = unionArea (tgtN x2 x4 b g) (outN x1 x3 b q) := by
  rw [val_main_v86_apply, val_main_v85_apply, v83_at, v84_at, v80_at]
  rfl

/-- The IoU. -/
theorem v87_at : val_main_v87 (F := Ideal) x1 x2 x3 x4 (ix3 b g q)
    = Ideal.div (interArea (tgtN x2 x4 b g) (outN x1 x3 b q)) (unionArea (tgtN x2 x4 b g) (outN x1 x3 b q)) := by
  rw [val_main_v87_apply, v80_at, v86_at]
  rfl

/-! ## The enclosing box -/

theorem v90_at (j : Fin 2) : val_main_v90 (F := Ideal) x2 x4 (ix4 b g q j) = tgtN x2 x4 b g (loC j) := by
  rw [val_main_v90_apply, val_main_v88_apply, val_main_v40_apply]
  have h : idx_main_v40 (idx_main_v88 (idx_main_v90 (ix4 b g q j))) = ix3 b g (loC j) :=
    funext fun a => Fin.ext (by match a with | ⟨0, _⟩ => rfl | ⟨1, _⟩ => rfl | ⟨2, _⟩ => rfl)
  rw [h]; exact v32_at x2 x4 b g (loC j)

theorem v91_at (j : Fin 2) : val_main_v91 (F := Ideal) x1 x3 (ix4 b g q j) = outN x1 x3 b q (loC j) := by
  rw [val_main_v91_apply, val_main_v89_apply, val_main_v41_apply]
  have h : idx_main_v41 (idx_main_v89 (idx_main_v91 (ix4 b g q j))) = ix3 b q (loC j) :=
    funext fun a => Fin.ext (by match a with | ⟨0, _⟩ => rfl | ⟨1, _⟩ => rfl | ⟨2, _⟩ => rfl)
  rw [h]; exact v31_at x1 x3 b q (loC j)

theorem v95_at (j : Fin 2) : val_main_v95 (F := Ideal) x2 x4 (ix4 b g q j) = tgtN x2 x4 b g (hiC j) := by
  rw [val_main_v95_apply, val_main_v93_apply, val_main_v40_apply]
  have h : idx_main_v40 (idx_main_v93 (idx_main_v95 (ix4 b g q j))) = ix3 b g (hiC j) :=
    funext fun a => Fin.ext (by match a with | ⟨0, _⟩ => rfl | ⟨1, _⟩ => rfl | ⟨2, _⟩ => rfl)
  rw [h]; exact v32_at x2 x4 b g (hiC j)

theorem v96_at (j : Fin 2) : val_main_v96 (F := Ideal) x1 x3 (ix4 b g q j) = outN x1 x3 b q (hiC j) := by
  rw [val_main_v96_apply, val_main_v94_apply, val_main_v41_apply]
  have h : idx_main_v41 (idx_main_v94 (idx_main_v96 (ix4 b g q j))) = ix3 b q (hiC j) :=
    funext fun a => Fin.ext (by match a with | ⟨0, _⟩ => rfl | ⟨1, _⟩ => rfl | ⟨2, _⟩ => rfl)
  rw [h]; exact v31_at x1 x3 b q (hiC j)

/-- The enclosing box's extent along one axis, clipped at zero. -/
theorem v99_at (j : Fin 2) : val_main_v99 (F := Ideal) x1 x2 x3 x4 (ix4 b g q j)
    = max 0 (max (tgtN x2 x4 b g (hiC j)) (outN x1 x3 b q (hiC j)) - min (tgtN x2 x4 b g (loC j)) (outN x1 x3 b q (loC j))) := by
  rw [val_main_v99_apply, val_main_v98_apply, val_main_v97_apply, val_main_v92_apply, v90_at, v91_at, v95_at, v96_at,
    val_main_call4_v1_apply, val_main_call4_v0_apply, val_main_cst_9_apply, Ideal.ofBits_def, Ideal.ofBits_zero_f32]
  rfl

theorem v101_at : val_main_v101 (F := Ideal) x1 x2 x3 x4 (ix3 b g q) = max 0 (max (tgtN x2 x4 b g 2) (outN x1 x3 b q 2) - min (tgtN x2 x4 b g 0) (outN x1 x3 b q 0)) := by
  rw [val_main_v101_apply, val_main_v100_apply]
  have hb := b.isLt
  have hg := g.isLt
  have hq := q.isLt
  have h : idx_main_v100 (idx_main_v101 (ix3 b g q)) = ix4 b g q (0 : Fin 2) :=
    funext fun a => Fin.ext (by
      match a with
      | ⟨0, _⟩ => show ((b.val * 300 + g.val) * 1000 + q.val) / 300000 = b.val; omega
      | ⟨1, _⟩ => show ((b.val * 300 + g.val) * 1000 + q.val) / 1000 % 300 = g.val; omega
      | ⟨2, _⟩ => show ((b.val * 300 + g.val) * 1000 + q.val) / 1 % 1000 = q.val; omega
      | ⟨3, _⟩ => rfl)
  rw [h, v99_at]; rfl

theorem v103_at : val_main_v103 (F := Ideal) x1 x2 x3 x4 (ix3 b g q) = max 0 (max (tgtN x2 x4 b g 3) (outN x1 x3 b q 3) - min (tgtN x2 x4 b g 1) (outN x1 x3 b q 1)) := by
  rw [val_main_v103_apply, val_main_v102_apply]
  have hb := b.isLt
  have hg := g.isLt
  have hq := q.isLt
  have h : idx_main_v102 (idx_main_v103 (ix3 b g q)) = ix4 b g q (1 : Fin 2) :=
    funext fun a => Fin.ext (by
      match a with
      | ⟨0, _⟩ => show ((b.val * 300 + g.val) * 1000 + q.val) / 300000 = b.val; omega
      | ⟨1, _⟩ => show ((b.val * 300 + g.val) * 1000 + q.val) / 1000 % 300 = g.val; omega
      | ⟨2, _⟩ => show ((b.val * 300 + g.val) * 1000 + q.val) / 1 % 1000 = q.val; omega
      | ⟨3, _⟩ => rfl)
  rw [h, v99_at]; rfl

/-- The enclosing box's area. -/
theorem v104_at : val_main_v104 (F := Ideal) x1 x2 x3 x4 (ix3 b g q) = encArea (tgtN x2 x4 b g) (outN x1 x3 b q) := by
  rw [val_main_v104_apply, v101_at, v103_at]
  rfl

/-- The negated generalised IoU. -/
theorem v108_at : val_main_v108 (F := Ideal) x1 x2 x3 x4 (ix3 b g q) = -(giou (tgtN x2 x4 b g) (outN x1 x3 b q)) := by
  rw [val_main_v108_apply, val_main_v107_apply, val_main_v106_apply, val_main_v105_apply, v87_at, v104_at, v86_at]
  rfl

end Giou

/-! ## The two stated costs -/

/-- The reference's L1 cost. -/
theorem refL1_eq (x1 : (⟨S16x1000x4, .f32⟩ : BufTy).Contents (Elt Ideal)) (x2 : (⟨S16x300x4, .f32⟩ : BufTy).Contents (Elt Ideal))
    (x3 : (⟨S16x4, .f32⟩ : BufTy).Contents (Elt Ideal)) (x4 : (⟨S16x300x4, .f32⟩ : BufTy).Contents (Elt Ideal))
    (b : Fin 16) (g : Fin 300) (q : Fin 1000) :
    val_main_v39 (F := Ideal) x1 x2 x3 x4 (ix3 b g q) = l1 (tgtN x2 x4 b g) (outN x1 x3 b q) := by
  exact v39_at x1 x2 x3 x4 b g q

/-- The reference's GIoU cost: the negated generalised IoU. -/
theorem refNegGiou_eq (x1 : (⟨S16x1000x4, .f32⟩ : BufTy).Contents (Elt Ideal)) (x2 : (⟨S16x300x4, .f32⟩ : BufTy).Contents (Elt Ideal))
    (x3 : (⟨S16x4, .f32⟩ : BufTy).Contents (Elt Ideal)) (x4 : (⟨S16x300x4, .f32⟩ : BufTy).Contents (Elt Ideal))
    (b : Fin 16) (g : Fin 300) (q : Fin 1000) :
    val_main_v108 (F := Ideal) x1 x2 x3 x4 (ix3 b g q) = -(giou (tgtN x2 x4 b g) (outN x1 x3 b q)) := by
  exact v108_at x1 x2 x3 x4 b g q

end Cert.ReferenceIdeal.RefCost

end
-- ==== Proof.RefCost.lean ====
/-
  The reference's result is the cost matrix: rows below 300 of the concatenation are the weighted sum of the classification, L1
  and GIoU costs, row 300 is twice the per-query sum of the label-0 losses.
-/
import proofs.«409532_j47974784697138_1_alg».proof.Proof.RefCls
import proofs.«409532_j47974784697138_1_alg».proof.Proof.RefBox

noncomputable section

open scoped BigOperators

namespace Cert.ReferenceIdeal.RefCost

open Cert.ReferenceIdeal Cert.ReferenceIdeal.Read Cert.CostSpec
open Idealize.ShloMosaic Idealize.ShloMosaic.ValueIdx

variable (x0 : (⟨S16x1000x80, .f32⟩ : BufTy).Contents (Elt Ideal)) (x1 : (⟨S16x1000x4, .f32⟩ : BufTy).Contents (Elt Ideal))
  (x2 : (⟨S16x300x4, .f32⟩ : BufTy).Contents (Elt Ideal)) (x3 : (⟨S16x4, .f32⟩ : BufTy).Contents (Elt Ideal))
  (x4 : (⟨S16x300x4, .f32⟩ : BufTy).Contents (Elt Ideal)) (x5 : (⟨S16x300, .i32⟩ : BufTy).Contents (Elt Ideal))

/-- A foreground entry of the reference: `2·cls + 5·l1 + 2·(−giou)`. -/
theorem refFg_eq (h5 : ∀ (b : Fin 16) (g : Fin 300), (x5 (ix2 b g)).toNat < 80) (b : Fin 16) (g : Fin 300) (q : Fin 1000) :
    val_main_v116 (F := Ideal) x0 x1 x2 x3 x4 x5 (ix3 b g q) = fg x0 x1 x2 x3 x4 x5 b g q := by
  rw [val_main_v116_apply, val_main_v113_apply, val_main_v110_apply, val_main_v112_apply, val_main_v115_apply,
    val_main_v109_apply, val_main_v111_apply, val_main_v114_apply, val_main_cst_10_apply, val_main_cst_11_apply,
    val_main_cst_12_apply, clsCost_eq x0 x5 h5 b g q, refL1_eq x1 x2 x3 x4 b g q, refNegGiou_eq x1 x2 x3 x4 b g q]
  rfl

/-- A background entry of the reference: twice the sum. -/
theorem refBg_eq (b : Fin 16) (q : Fin 1000) :
    val_main_v119 (F := Ideal) x0 (ix3 b 0 q) = bg x0 b q := by
  rw [val_main_v119_apply, val_main_v118_apply, val_main_v117_apply, val_main_cst_13_apply]
  have e : idx_main_v119 (ix3 b (0 : Fin 1) q) = ix2 b q :=
    funext fun a => Fin.ext (by match a with | ⟨0, _⟩ => rfl | ⟨1, _⟩ => rfl)
  rw [e, negSum_eq x0 b q]
  rfl

/-- The reference's result array is the cost matrix, the targets' classes being below 80. -/
theorem ref_eq_cost (h5 : ∀ (b : Fin 16) (g : Fin 300), (x5 (ix2 b g)).toNat < 80) :
    val_main_v120 (F := Ideal) x0 x1 x2 x3 x4 x5 = cost x0 x1 x2 x3 x4 x5 := by
  funext i
  obtain ⟨b, r, q, rfl⟩ : ∃ (b : Fin 16) (r : Fin 301) (q : Fin 1000), i = ix3 b r q := ⟨i 0, i 1, i 2, eq_ix3 i⟩
  rw [cost_apply]
  unfold val_main_v120
  by_cases hr : r.val < 300
  · rw [dif_pos hr]
    refine (concatenate_pair_apply_left (t := S16x301x1000) (s₁ := S16x300x1000) (s₂ := S16x1x1000) (1 : Fin 3) _ _ _ (ix3 b r q) rfl
      (ix3 b ⟨r.val, hr⟩ q) (fun a => by match a with | ⟨0, _⟩ => rfl | ⟨1, _⟩ => rfl | ⟨2, _⟩ => rfl)).trans ?_
    exact refFg_eq x0 x1 x2 x3 x4 x5 h5 b ⟨r.val, hr⟩ q
  · rw [dif_neg hr]
    have hr' : r.val = 300 := by have := r.isLt; omega
    refine (concatenate_pair_apply_right (t := S16x301x1000) (s₁ := S16x300x1000) (s₂ := S16x1x1000) (1 : Fin 3) _ _ _ (ix3 b r q) rfl rfl
      (ix3 b (0 : Fin 1) q) (fun a ha => by
        match a with
        | ⟨0, _⟩ => rfl
        | ⟨1, _⟩ => exact absurd rfl ha
        | ⟨2, _⟩ => rfl) (by show 0 + 300 = r.val; omega)).trans ?_
    exact refBg_eq x0 b q

end Cert.ReferenceIdeal.RefCost

end
-- ==== Proof.lean ====
/-
  The certificate of the matching-cost kernel against its jnp reference, over the extended reals.

  Both programs compute, per image, the 301 × 1000 matrix of Proof/CostSpec.lean: for a target row g < 300 and a query q,
  2·(N[q] + Δ(logits[q, class[g]])) + 5·L1 + 2·(−GIoU) of the normalised boxes, and in row 300 the background cost 2·N[q], with N
  the sum over the 80 classes of the label-0 focal loss and Δ what one class adds when its label is 1.

  The kernel (one grid point per image) reads Δ at the target's class by multiplying a one-hot row into the Δ of all classes: a
  sum in which every product but one is 0 · x = 0. The reference reads it with take_along_axis. The two agree when the class is
  one of the 80 — the precondition's added conjunct; outside that range the reference wraps or fills and the kernel's row is
  zero. The reference squares the logistic function's values with a real power 2.0, the kernel by a product: equal because
  those values are real numbers. Everything else is the same arithmetic in another layout.

    frame_Kernel, frame_KernelIdeal — the generated frame runs.
    frame_ReferenceIdeal — the generated run of the reference, its result dropped.
    preserves_Kernel_KernelIdeal — the ideal pass rewrote nothing: True.
    algebraic_KernelIdeal_ReferenceIdeal — the kernel's result array is the cost matrix of the arguments (Proof/KernelValue.lean, over
      Proof/KernelCls.lean and Proof/KernelBox.lean), and so is the reference's (Proof/RefCost.lean, over Proof/RefCls.lean and
      Proof/RefBox.lean); the classes are in range by the precondition (Proof/PreRange.lean).
-/
import proofs.«409532_j47974784697138_1_alg».proof.Defs
import proofs.«409532_j47974784697138_1_alg».proof.Proof.Gen.Kernel
import proofs.«409532_j47974784697138_1_alg».proof.Proof.Gen.Kernel.Skeleton
import proofs.«409532_j47974784697138_1_alg».proof.Proof.Gen.Kernel.Launch
import proofs.«409532_j47974784697138_1_alg».proof.Proof.Gen.Kernel.Points
import proofs.«409532_j47974784697138_1_alg».proof.Proof.Gen.Kernel.Frame
import proofs.«409532_j47974784697138_1_alg».proof.Proof.Gen.KernelIdeal
import proofs.«409532_j47974784697138_1_alg».proof.Proof.Gen.KernelIdeal.Skeleton
import proofs.«409532_j47974784697138_1_alg».proof.Proof.Gen.KernelIdeal.Launch
import proofs.«409532_j47974784697138_1_alg».proof.Proof.Gen.KernelIdeal.Points
import proofs.«409532_j47974784697138_1_alg».proof.Proof.Gen.KernelIdeal.Frame
import proofs.«409532_j47974784697138_1_alg».proof.Proof.Gen.ReferenceIdeal
import proofs.«409532_j47974784697138_1_alg».proof.Proof.Gen.Pre_finite_inputs
import proofs.«409532_j47974784697138_1_alg».proof.Proof.Gen.KernelIdeal.Value
import proofs.«409532_j47974784697138_1_alg».proof.Proof.Gen.ReferenceIdeal.Run
import proofs.«409532_j47974784697138_1_alg».proof.Proof.Gen.ReferenceIdeal.Read
import proofs.«409532_j47974784697138_1_alg».proof.Proof.PreRange
import proofs.«409532_j47974784697138_1_alg».proof.Proof.KernelValue
import proofs.«409532_j47974784697138_1_alg».proof.Proof.RefCost
import Idealize.ShloMosaic.Adequacy
import Idealize.ShloMosaic.Init

noncomputable section

namespace Cert.Proof

open Idealize.ShloMosaic Idealize.SL.Sem Idealize.ShloMosaic.ValueIdx Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both result arrays are the cost matrix of the arguments, which agree; the precondition puts every class below 80. -/
theorem algebraic : Cert.algebraic_KernelIdeal_ReferenceIdeal := by
  intro m ρ m' ρ' hpre hagree
  have hcls : ∀ (c : Dev Cert.KernelIdeal.nD) (b : Fin 16) (g : Fin 300),
      (Cert.KernelIdeal.CostValue.aCls m c (ix2 b g)).toNat < 80 :=
    fun c b g => Cert.Pre_finite_inputs.Range.classes_lt _ _ _ _ _ _ (hpre c) (ix2 b g)
  refine ⟨fun c => Cert.KernelIdeal.CostValue.costOf m c, Cert.KernelIdeal.CostValue.run m ρ hcls, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v120_eq, (hagree c).1, (hagree c).2.1, (hagree c).2.2.1, (hagree c).2.2.2.1,
    (hagree c).2.2.2.2.1, (hagree c).2.2.2.2.2]
  exact Cert.ReferenceIdeal.RefCost.ref_eq_cost _ _ _ _ _ _ (hcls c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
